-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x64 : Shape := ⟨2, ![262144, 64]⟩
abbrev S256x32 : Shape := ⟨2, ![256, 32]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S256x32 : S_.BroadcastsInDim S256x32 (![] : Fin 0 → Fin S256x32.rank)
  reducesTo_S256x32_S_d0_1 : S256x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S262144 : S_.BroadcastsInDim S262144 (![] : Fin 0 → Fin S262144.rank)
  reducesTo_S262144_S_d0 : S262144.ReducesTo [0] S_

variable [Facts]

def fn_part3 {F : FTy → Type} [FloatOps F] (main_arg4 : IVec S262144 32) (main_v48 : IVec S_ 1) (main_v50 : IVec S262144 1) : IVec S_ 1 :=
  let main_c_19 : IVec S_ 1 := constantI S_ 1 1#1
  let main_v51 : IVec S_ 1 := (fun x v => Host.reduce IntOp.andi x v reducesTo_S262144_S_d0 h_S_) main_v50 main_c_19
  let main_v52 : IVec S_ 1 := andi main_v48 main_v51
  let main_c_20 : IVec S_ 32 := constantI S_ 32 256#32
  let main_v53 : IVec S262144 32 := broadcastInDim S262144 ![] bcast_S_S262144 main_c_20
  let main_v54 : IVec S262144 1 := cmpi .slt main_arg4 main_v53
  let main_c_21 : IVec S_ 1 := constantI S_ 1 1#1
  let main_v55 : IVec S_ 1 := (fun x v => Host.reduce IntOp.andi x v reducesTo_S262144_S_d0 h_S_) main_v54 main_c_21
  let main_v56 : IVec S_ 1 := andi main_v52 main_v55
  main_v56

def fn_part2 {F : FTy → Type} [FloatOps F] (main_arg4 : IVec S262144 32) (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S262144 32 := broadcastInDim S262144 ![] bcast_S_S262144 main_c_18
  let main_v50 : IVec S262144 1 := cmpi .sge main_arg4 main_v49
  fn_part3 (F := F) main_arg4 main_v48 main_v50

def fn_part1 {F : FTy → Type} [FloatOps F] (main_arg4 : IVec S262144 32) (main_arg5 : FVec F S256x256 .f32) (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg4 main_arg8 main_arg9 main_arg10 main_v33

def fn {F : FTy → Type} [FloatOps F] (main_arg0 : FVec F S262144x128 .f32) (main_arg1 : FVec F S262144x64 .f32) (main_arg2 : FVec F S256x32 .f32) (main_arg3 : FVec F S256x32 .f32) (main_arg4 : IVec S262144 32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_arg7 main_arg8 main_arg9 main_arg10 main_v13 main_v16
-- ==== Kernel.lean ====
abbrev S262144x128 : Shape := ⟨2, ![262144, 128]⟩
abbrev S262144x64 : Shape := ⟨2, ![262144, 64]⟩
abbrev S256x32 : Shape := ⟨2, ![256, 32]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S262144x1 : Shape := ⟨2, ![262144, 1]⟩
abbrev S256x64 : Shape := ⟨2, ![256, 64]⟩
abbrev S1x256 : Shape := ⟨2, ![1, 256]⟩
abbrev S1x128 : Shape := ⟨2, ![1, 128]⟩
abbrev S262144x192 : Shape := ⟨2, ![262144, 192]⟩
abbrev S4096x128 : Shape := ⟨2, ![4096, 128]⟩
abbrev S4096x64 : Shape := ⟨2, ![4096, 64]⟩
abbrev S4096x1 : Shape := ⟨2, ![4096, 1]⟩
abbrev S4096x192 : Shape := ⟨2, ![4096, 192]⟩
abbrev S4096x256 : Shape := ⟨2, ![4096, 256]⟩

abbrev nBuf : Space → Nat
  | .hbm => 29
  | .vmem => 15
  | .smem => 0
  | _ => 0

abbrev bufTy : (tb : Table) → Fin (tcTables nBuf tb) → BufTy
  | .hbm, ⟨0, _⟩ => ⟨S262144x128, .f32⟩
  | .hbm, ⟨1, _⟩ => ⟨S262144x64, .f32⟩
  | .hbm, ⟨2, _⟩ => ⟨S256x32, .f32⟩
  | .hbm, ⟨3, _⟩ => ⟨S256x32, .f32⟩
  | .hbm, ⟨4, _⟩ => ⟨S262144, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S256x64, .f32⟩
  | .hbm, ⟨21, _⟩ => ⟨S256x64, .bf16⟩
  | .hbm, ⟨22, _⟩ => ⟨S256x256, .bf16⟩
  | .hbm, ⟨23, _⟩ => ⟨S256x256, .bf16⟩
  | .hbm, ⟨24, _⟩ => ⟨S256x128, .bf16⟩
  | .hbm, ⟨25, _⟩ => ⟨S1x256, .f32⟩
  | .hbm, ⟨26, _⟩ => ⟨S1x256, .f32⟩
  | .hbm, ⟨27, _⟩ => ⟨S1x128, .f32⟩
  | .hbm, ⟨28, _⟩ => ⟨S262144x192, .f32⟩
  | .local _ .vmem, ⟨0, _⟩ => ⟨S4096x128, .f32⟩
  | .local _ .vmem, ⟨1, _⟩ => ⟨S4096x128, .f32⟩
  | .local _ .vmem, ⟨2, _⟩ => ⟨S4096x64, .f32⟩
  | .local _ .vmem, ⟨3, _⟩ => ⟨S4096x64, .f32⟩
  | .local _ .vmem, ⟨4, _⟩ => ⟨S4096x1, .i32⟩
  | .local _ .vmem, ⟨5, _⟩ => ⟨S4096x1, .i32⟩
  | .local _ .vmem, ⟨6, _⟩ => ⟨S256x64, .bf16⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x128, .bf16⟩
  | .local _ .vmem, ⟨12, _⟩ => ⟨S1x128, .f32⟩
  | .local _ .vmem, ⟨13, _⟩ => ⟨S4096x192, .f32⟩
  | .local _ .vmem, ⟨14, _⟩ => ⟨S4096x192, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S262144 : S_.BroadcastsInDim S262144 (![] : Fin 0 → Fin S262144.rank)
  shapeCasts_S262144_S262144x1 : S262144.ShapeCasts S262144x1
  concatenates_S256x32_S256x32_S256x64_d1 : Shape.Concatenates [S256x32, S256x32] S256x64 1
  bitsLt_bf16_f32 : FTy.bits .bf16 < FTy.bits .f32
  shapeCasts_S256_S1x256 : S256.ShapeCasts S1x256
  shapeCasts_S128_S1x128 : S128.ShapeCasts S1x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x256_d1_w32 : S1x256.Iotas .tc 32 [1]
  broadcasts_S4096x1_S4096x256 : S4096x1.Broadcasts S4096x256
  broadcasts_S1x256_S4096x256 : S1x256.Broadcasts S4096x256
  natLt_1_32 : 1 < 32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S4096x128_S4096x128_0_0 : ∀ a, (![0, 0] : Fin 2 → Nat) a + S4096x128.size a ≤ S4096x128.size a
  h_S4096x128 : 0 < S4096x128.numel
  inb_S4096x64_S4096x64_0_0 : ∀ a, (![0, 0] : Fin 2 → Nat) a + S4096x64.size a ≤ S4096x64.size a
  h_S4096x64 : 0 < S4096x64.numel
  concatenates_S4096x128_S4096x64_S4096x64_S4096x256_d1 : Shape.Concatenates [S4096x128, S4096x64, S4096x64] S4096x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  concatenates_S4096x128_S4096x64_S4096x192_d1 : Shape.Concatenates [S4096x128, S4096x64] S4096x192 1
  inb_S4096x192_S4096x192_0_0 : ∀ a, (![0, 0] : Fin 2 → Nat) a + S4096x192.size a ≤ S4096x192.size a
  h_S4096x192 : 0 < S4096x192.numel
  dot_S4096x256_S256x64_S4096x64_1_0_0_1_n_n_wf : DotDims.WF S4096x256 S256x64 S4096x64 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .f32 = 32 ∨ (Rect.block (s := S262144x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S262144x1.size a
  hwx0_2 : ∀ i : grid0.Coords, EltTy.bits .i32 = 32 ∨ (Rect.block (s := S262144x1) S4096x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x192.size a ≤ S262144x192.size a
  hwx0_10 : ∀ i : grid0.Coords, EltTy.bits .f32 = 32 ∨ (Rect.block (s := S262144x192) S4096x192.size (cc0_transform_10 i) (hinb0_10 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S4096x192.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x64 : Shape := ⟨2, ![262144, 64]⟩
abbrev S256x32 : Shape := ⟨2, ![256, 32]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S262144x192 : Shape := ⟨2, ![262144, 192]⟩
abbrev S256x64 : Shape := ⟨2, ![256, 64]⟩
abbrev S_ : Shape := ⟨0, ![]⟩
abbrev S262144x1 : Shape := ⟨2, ![262144, 1]⟩
abbrev S262144x256 : Shape := ⟨2, ![262144, 256]⟩
abbrev S1x256 : Shape := ⟨2, ![1, 256]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x64, .f32⟩
  | .hbm, ⟨2, _⟩ => ⟨S256x32, .f32⟩
  | .hbm, ⟨3, _⟩ => ⟨S256x32, .f32⟩
  | .hbm, ⟨4, _⟩ => ⟨S262144, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S262144x192, .f32⟩
  | .hbm, ⟨12, _⟩ => ⟨S256x64, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x64, .f32⟩
  | .hbm, ⟨22, _⟩ => ⟨S262144x256, .f32⟩
  | .hbm, ⟨23, _⟩ => ⟨S262144x256, .f32⟩
  | .hbm, ⟨24, _⟩ => ⟨S1x256, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S_, .f32⟩
  | .hbm, ⟨30, _⟩ => ⟨S262144x256, .f32⟩
  | .hbm, ⟨31, _⟩ => ⟨S262144x256, .f32⟩
  | .hbm, ⟨32, _⟩ => ⟨S_, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S1x256, .f32⟩
  | .hbm, ⟨38, _⟩ => ⟨S262144x256, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S_, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S262144x256, .f32⟩
  | .hbm, ⟨47, _⟩ => ⟨S262144x256, .f32⟩
  | .hbm, ⟨48, _⟩ => ⟨S262144x256, .f32⟩
  | .hbm, ⟨49, _⟩ => ⟨S262144x128, .f32⟩
  | .hbm, ⟨50, _⟩ => ⟨S1x128, .f32⟩
  | .hbm, ⟨51, _⟩ => ⟨S262144x128, .f32⟩
  | .hbm, ⟨52, _⟩ => ⟨S262144x128, .f32⟩
  | .hbm, ⟨53, _⟩ => ⟨S262144x192, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩

abbrev nD : Nat := 1
abbrev τ : Topo := Topo.v7x

variable {F : FTy → Type} [FloatOps F]

class Facts₀ : Prop where
  concatenates_S262144x128_S262144x64_S262144x192_d1 : Shape.Concatenates [S262144x128, S262144x64] S262144x192 1
  concatenates_S256x32_S256x32_S256x64_d1 : Shape.Concatenates [S256x32, S256x32] S256x64 1
  bcast_S_S262144 : S_.BroadcastsInDim S262144 (![] : Fin 0 → Fin S262144.rank)
  bcast_S262144_S262144x1_0 : S262144.BroadcastsInDim S262144x1 (![0] : Fin 1 → Fin S262144x1.rank)
  concatenates_S262144x192_S262144x64_S262144x256_d1 : Shape.Concatenates [S262144x192, S262144x64] S262144x256 1
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  gather_S256x64_S262144x1_S262144x64_1_0_n_n_0_1_164_wf : GatherDims.WF S256x64 S262144x1 S262144x64 [1] [0] [] [0] [] 1 ![1, 64]
  dot_S262144x256_S256x256_S262144x256_1_0_0_1_n_n_wf : DotDims.WF S262144x256 S256x256 S262144x256 [1] [0] [0] [1] [] []
  dot_S262144x256_S256x128_S262144x128_1_0_0_1_n_n_wf : DotDims.WF S262144x256 S256x128 S262144x128 [1] [0] [0] [1] [] []

variable [Facts₀]

def gather_S256x64_S262144x1_S262144x64_1_0_n_n_0_1_164 : GatherDims S256x64 S262144x1 S262144x64 where
  offsetDims := [1]
  collapsedSliceDims := [0]
  operandBatchingDims := []
  startIndicesBatchingDims := []
  startIndexMap := [0]
  indexVectorDim := 1
  sliceSizes := ![1, 64]
  wf := gather_S256x64_S262144x1_S262144x64_1_0_n_n_0_1_164_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf

class Facts : Prop extends Facts₀ where

variable [Facts]
-- ==== Proof.Spec.lean ====
/-
  The edge update of a message-passing layer, as ONE function of its inputs, row by row.

  Edge `e` carries the feature row `x e = [pooled e | edge e | table (graph e)]` of width 128 + 64 + 64 = 256, where
  `table g = [globs g | cndts g]` is the per-graph context and `graph e` is the edge's batch index. The row goes through
  a dense network with two hidden SiLU layers,
      h₁ = silu (x · W₁ + b₁),   h₂ = silu (h₁ · W₂ + b₂),   y = h₂ · W₃ + b₃,
  and the result row is `[y | edge e]`, of width 128 + 64 = 192. Everything is on the extended reals: a product of two
  matrices at an entry is the sum over the contracted coordinate, `silu x = x · 1 / (1 + e^(−x))`.

  Both programs are compared with this function: the kernel picks the context row by a one-hot product, the reference by
  a gather; for a batch index that is one of the 256 graphs the two pick the same row.
-/
import Idealize.ShloMosaic.PureOps.Ideal
import Idealize.ShloMosaic.Lib.ValueIdx

noncomputable section

open scoped BigOperators
open Idealize.ShloMosaic Idealize.ShloMosaic.ValueIdx

namespace Cert.EdgeBlock

/-- SiLU: `x · σ(x)` with the logistic `σ(x) = 1 / (1 + e^(−x))`. -/
def silu (x : EReal) : EReal := x * Ideal.logistic x

/-- One dense layer at output column `n`: `(∑ₖ x k · W k n) + b n`. -/
def dense {K N : Nat} (x : Fin K → EReal) (W : Fin K → Fin N → EReal) (b : Fin N → EReal) (n : Fin N) : EReal :=
  (∑ k : Fin K, x k * W k n) + b n

/-- The first hidden layer of a feature row. -/
def hidden1 (x : Fin 256 → EReal) (W1 : Fin 256 → Fin 256 → EReal) (b1 : Fin 256 → EReal) (n : Fin 256) : EReal :=
  silu (dense x W1 b1 n)

/-- The second hidden layer. -/
def hidden2 (x : Fin 256 → EReal) (W1 : Fin 256 → Fin 256 → EReal) (b1 : Fin 256 → EReal)
    (W2 : Fin 256 → Fin 256 → EReal) (b2 : Fin 256 → EReal) (n : Fin 256) : EReal :=
  silu (dense (hidden1 x W1 b1) W2 b2 n)

/-- The network's linear output layer. -/
def netOut (x : Fin 256 → EReal) (W1 : Fin 256 → Fin 256 → EReal) (b1 : Fin 256 → EReal)
    (W2 : Fin 256 → Fin 256 → EReal) (b2 : Fin 256 → EReal) (W3 : Fin 256 → Fin 128 → EReal) (b3 : Fin 128 → EReal)
    (j : Fin 128) : EReal :=
  dense (hidden2 x W1 b1 W2 b2) W3 b3 j

/-- A graph's context row: its 32 globals followed by its 32 conditions. -/
def tableRow (gl cn : Fin 32 → EReal) (c : Fin 64) : EReal :=
  if h : c.val < 32 then gl ⟨c.val, h⟩ else cn ⟨c.val - 32, by have := c.isLt; omega⟩

/-- An edge's feature row: 128 pooled messages, its own 64 features, its graph's 64 context entries. -/
def feat (pm : Fin 128 → EReal) (ed : Fin 64 → EReal) (ctx : Fin 64 → EReal) (k : Fin 256) : EReal :=
  if h : k.val < 128 then pm ⟨k.val, h⟩
  else if h2 : k.val < 192 then ed ⟨k.val - 128, by omega⟩
  else ctx ⟨k.val - 192, by have := k.isLt; omega⟩

/-- An edge's result row: the network's 128 outputs followed by the edge's own 64 features (the residual by
    concatenation). -/
def outRow (x : Fin 256 → EReal) (W1 : Fin 256 → Fin 256 → EReal) (b1 : Fin 256 → EReal)
    (W2 : Fin 256 → Fin 256 → EReal) (b2 : Fin 256 → EReal) (W3 : Fin 256 → Fin 128 → EReal) (b3 : Fin 128 → EReal)
    (ed : Fin 64 → EReal) (q : Fin 192) : EReal :=
  if h : q.val < 128 then netOut x W1 b1 W2 b2 W3 b3 ⟨q.val, h⟩ else ed ⟨q.val - 128, by have := q.isLt; omega⟩

/-- The graph a batch-index word names, as one of the 256 rows of the table (the word's value, reduced to the table's
    range; for a word that IS one of `0 … 255` it is that number: `rowOf_ofNat`). -/
def rowOf (w : BitVec 32) : Fin 256 := ⟨w.toNat % 256, Nat.mod_lt _ (by norm_num)⟩

theorem rowOf_ofNat (r : Fin 256) : rowOf (BitVec.ofNat 32 r.val) = r := by
  refine Fin.ext ?_
  show (BitVec.ofNat 32 r.val).toNat % 256 = r.val
  rw [BitVec.toNat_ofNat]
  have := r.isLt
  omega

/-- THE WHOLE RESULT, `[262144, 192]`, as a function of the eleven inputs: row `e` is `outRow` of edge `e`'s feature row. -/
def G (pm : (⟨2, ![262144, 128]⟩ : Shape).Idx → EReal) (ed : (⟨2, ![262144, 64]⟩ : Shape).Idx → EReal)
    (gl cn : (⟨2, ![256, 32]⟩ : Shape).Idx → EReal) (bi : (⟨1, ![262144]⟩ : Shape).Idx → BitVec 32)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 128]⟩ : Shape).Idx → EReal) (b3 : (⟨1, ![128]⟩ : Shape).Idx → EReal) :
    (⟨2, ![262144, 192]⟩ : Shape).Idx → EReal := fun i =>
  outRow
    (feat (fun k => pm (ix2 (i 0) k)) (fun k => ed (ix2 (i 0) k))
      (tableRow (fun c => gl (ix2 (rowOf (bi (ix1 (i 0)))) c)) (fun c => cn (ix2 (rowOf (bi (ix1 (i 0)))) c))))
    (fun k n => W1 (ix2 k n)) (fun n => b1 (ix1 n)) (fun k n => W2 (ix2 k n)) (fun n => b2 (ix1 n))
    (fun k j => W3 (ix2 k j)) (fun j => b3 (ix1 j)) (fun c => ed (ix2 (i 0) c)) (i 1)

end Cert.EdgeBlock

end
-- ==== Proof.PreDecode.lean ====
/-
  From the precondition to the batch indices' range.

  The precondition is a conjunction: every float input is finite, every batch index is at least 0, and every batch index
  is below 256 (each "every" a reduction by `and` over the array). Its last two conjuncts say that each batch index,
  read as a signed 32-bit word, is one of `0 … 255` — that is, the word of one of the table's 256 rows.
-/
import proofs.«418049_j5076651344271_2_alg».proof.Proof.Gen.Pre_finite_inputs
import Idealize.ShloMosaic.Lib.ValueIdx
import Idealize.ShloMosaic.Lib.ReduceAll
import Idealize.ShloMosaic.Lib.StableHlo.Predicate

noncomputable section

namespace Cert.Proof.PreDecode

open Cert.Pre_finite_inputs Idealize.ShloMosaic Idealize.ShloMosaic.ValueIdx

/-- Under the precondition every batch index is the word of a table row `r < 256`. -/
theorem batch_in_range (x0 : FVec Ideal S262144x128 .f32) (x1 : FVec Ideal S262144x64 .f32) (x2 x3 : FVec Ideal S256x32 .f32)
    (x4 : IVec S262144 32) (x5 : FVec Ideal S256x256 .f32) (x6 : FVec Ideal S256 .f32) (x7 : FVec Ideal S256x256 .f32)
    (x8 : FVec Ideal S256 .f32) (x9 : FVec Ideal S256x128 .f32) (x10 : FVec Ideal S128 .f32)
    (h : Cert.Pre_finite_inputs.fn (F := Ideal) x0 x1 x2 x3 x4 x5 x6 x7 x8 x9 x10 = fun _ => 1#1) (e : Fin 262144) :
    ∃ r : Fin 256, x4 (ix1 e) = BitVec.ofNat 32 r.val := by
  -- the result of a reduction over all axes has a single index
  haveI : Subsingleton S_.Idx := ⟨fun a b => funext fun d => d.elim0⟩
  have h0 := congrFun h ValueIdx.ix0
  dsimp only [fn, fn_part1, fn_part2, fn_part3] at h0
  -- the conjunction's last two conjuncts: "every index ≥ 0" and "every index < 256"
  obtain ⟨hA, hlt⟩ := IntOp.andi_eq_one.1 h0
  obtain ⟨_, hge⟩ := IntOp.andi_eq_one.1 hA
  -- each "every" read at the edge e
  have hge' : IntOp.cmpi .sge (x4 (ix1 e)) 0#32 = 1#1 := Host.reduce_andi_all _ _ _ _ _ hge (ix1 e)
  have hlt' : IntOp.cmpi .slt (x4 (ix1 e)) 256#32 = 1#1 := Host.reduce_andi_all _ _ _ _ _ hlt (ix1 e)
  -- the two signed compares, as inequalities of the word's signed value
  have h1 : (0#32 : BitVec 32).toInt ≤ (x4 (ix1 e)).toInt := IntOp.cmpi_sge.1 hge'
  have h2 : (x4 (ix1 e)).toInt < (256#32 : BitVec 32).toInt := IntOp.cmpi_slt.1 hlt'
  have z0 : (0#32 : BitVec 32).toInt = 0 := by decide
  have z256 : (256#32 : BitVec 32).toInt = 256 := by decide
  rw [z0] at h1
  rw [z256] at h2
  -- a word whose signed value is in [0, 256) has that unsigned value
  have hlt32 := (x4 (ix1 e)).isLt
  have hcond := BitVec.toInt_eq_toNat_cond (x4 (ix1 e))
  have hN : (x4 (ix1 e)).toNat < 256 := by
    split at hcond <;> omega
  refine ⟨⟨(x4 (ix1 e)).toNat, hN⟩, ?_⟩
  apply BitVec.eq_of_toNat_eq
  rw [BitVec.toNat_ofNat]
  exact (Nat.mod_eq_of_lt hlt32).symm

end Cert.Proof.PreDecode

end
-- ==== Proof.BlockValue.lean ====
/-
  One block of the kernel, read at one entry.

  The kernel body works on 4096 edges at a time. From the block's loads — the clipped batch indices (one column), the
  context table, the pooled messages, the edges' own features, the three weight matrices and the three bias rows — it
  builds the one-hot matrix of the batch indices, multiplies it with the table (which picks each edge's context row),
  lays the three pieces side by side into the 256 features, runs the two SiLU layers and the linear layer as matrix
  products, and lays the edges' own features behind the 128 outputs.

  Here that value is read at row `p`, column `q`: it is `EdgeBlock.outRow` of row `p`'s features, where the context
  row is row `r` of the table as soon as the (clipped) batch index of row `p` is the word of `r`.
-/
import proofs.«418049_j5076651344271_2_alg».proof.Proof.Gen.KernelIdeal.Skeleton
import proofs.«418049_j5076651344271_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The three matrix products' operand indices, axis by axis

Each product contracts the left operand's axis 1 with the right operand's axis 0: at output index `(row, col)` and
contraction coordinate `k` the operands are read at `(row, k)` and `(k, col)`. -/

theorem lhs_ctx_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhs_ctx_1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q
theorem rhs_ctx_0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q
theorem rhs_ctx_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

theorem lhs_hid_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_hid_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_hid_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_hid_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem lhs_out_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_out_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_out_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_out_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-! ## A product into the zero accumulator, read at `(row, col)`: the sum over the 256 contraction coordinates -/

/-- The [4096,256] × [256,64] product at `(p, c)`. -/
theorem matmul_ctx_apply (a : FVec Ideal S4096x256 .bf16) (b : FVec Ideal S256x64 .bf16) (p : Fin 4096) (c : Fin 64) :
    matmul dot_S4096x256_S256x64_S4096x64_1_0_0_1_n_n none a b (constant (F := Ideal) S4096x64 .f32 0x00000000#32) (ix2 p c)
      = ∑ k : Fin 256, a (ix2 p k) * b (ix2 k c) := by
  simp only [matmul]
  rw [Ideal.matmul_constant_zero_apply, ← Equiv.sum_comp (ValueIdx.contrEquiv1 dot_S4096x256_S256x64_S4096x64_1_0_0_1_n_n 256 rfl rfl).symm]
  refine Finset.sum_congr rfl fun k _ => ?_
  have hk := ValueIdx.contrEquiv1_symm_val dot_S4096x256_S256x64_S4096x64_1_0_0_1_n_n 256 rfl rfl k
  have el : dot_S4096x256_S256x64_S4096x64_1_0_0_1_n_n.lhsIdx (ix2 p c) ((ValueIdx.contrEquiv1 dot_S4096x256_S256x64_S4096x64_1_0_0_1_n_n 256 rfl rfl).symm k) = ix2 p k := funext fun a => Fin.ext (by
    match a with
    | ⟨0, _⟩ => exact lhs_ctx_0 _ _
    | ⟨1, _⟩ => exact (lhs_ctx_1 _ _).trans hk)
  have er : dot_S4096x256_S256x64_S4096x64_1_0_0_1_n_n.rhsIdx (ix2 p c) ((ValueIdx.contrEquiv1 dot_S4096x256_S256x64_S4096x64_1_0_0_1_n_n 256 rfl rfl).symm k) = ix2 k c := funext fun a => Fin.ext (by
    match a with
    | ⟨0, _⟩ => exact (rhs_ctx_0 _ _).trans hk
    | ⟨1, _⟩ => exact rhs_ctx_1 _ _)
  rw [el, er]

/-- The [4096,256] × [256,256] product at `(p, n)`. -/
theorem matmul_hid_apply (a : FVec Ideal S4096x256 .bf16) (b : FVec Ideal S256x256 .bf16) (p : Fin 4096) (n : Fin 256) :
    matmul dot_S4096x256_S256x256_S4096x256_1_0_0_1_n_n none a b (constant (F := Ideal) S4096x256 .f32 0x00000000#32) (ix2 p n)
      = ∑ k : Fin 256, a (ix2 p k) * b (ix2 k n) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p n) ((ValueIdx.contrEquiv1 dot_S4096x256_S256x256_S4096x256_1_0_0_1_n_n 256 rfl rfl).symm k) = ix2 p k := funext fun a => Fin.ext (by
    match a with
    | ⟨0, _⟩ => exact lhs_hid_0 _ _
    | ⟨1, _⟩ => exact (lhs_hid_1 _ _).trans hk)
  have er : dot_S4096x256_S256x256_S4096x256_1_0_0_1_n_n.rhsIdx (ix2 p n) ((ValueIdx.contrEquiv1 dot_S4096x256_S256x256_S4096x256_1_0_0_1_n_n 256 rfl rfl).symm k) = ix2 k n := funext fun a => Fin.ext (by
    match a with
    | ⟨0, _⟩ => exact (rhs_hid_0 _ _).trans hk
    | ⟨1, _⟩ => exact rhs_hid_1 _ _)
  rw [el, er]

/-- The [4096,256] × [256,128] product at `(p, j)`. -/
theorem matmul_out_apply (a : FVec Ideal S4096x256 .bf16) (b : FVec Ideal S256x128 .bf16) (p : Fin 4096) (j : Fin 128) :
    matmul dot_S4096x256_S256x128_S4096x128_1_0_0_1_n_n none a b (constant (F := Ideal) S4096x128 .f32 0x00000000#32) (ix2 p j)
      = ∑ k : Fin 256, a (ix2 p k) * b (ix2 k j) := by
  simp only [matmul]
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 p j) ((ValueIdx.contrEquiv1 dot_S4096x256_S256x128_S4096x128_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S4096x256_S256x128_S4096x128_1_0_0_1_n_n.rhsIdx (ix2 p j) ((ValueIdx.contrEquiv1 dot_S4096x256_S256x128_S4096x128_1_0_0_1_n_n 256 rfl rfl).symm k) = ix2 k j := funext fun a => Fin.ext (by
    match a with
    | ⟨0, _⟩ => exact (rhs_out_0 _ _).trans hk
    | ⟨1, _⟩ => exact rhs_out_1 _ _)
  rw [el, er]

/-! ## The block's stages, as the operations compute them

The payloads are these five stages composed (`pay_eq`, by unfolding): the one-hot matrix of the batch indices, its
product with the table, the three pieces laid side by side, a dense layer followed by SiLU (twice), and the linear
output layer with the edges' own features laid behind it. -/

/-- The one-hot matrix of the batch indices: the comparison of row `p`'s batch index with the column number, as a
    number. -/
def onehot (v0 : Vec Ideal S4096x1 .i32) : FVec Ideal S4096x256 .bf16 :=
  truncf .bf16 (sitofp .f32 (extui 32 (cmpi .eq
    (broadcastTo S4096x256 (shapeCast S4096x1 v0 shapeCasts_S4096x1_S4096x1) broadcasts_S4096x1_S4096x256)
    (broadcastTo S4096x256 (iota .tc S1x256 32 [1] iota_S1x256_d1_w32) broadcasts_S1x256_S4096x256)) natLt_1_32)) bitsLt_bf16_f32

/-- Each edge's context row: the one-hot matrix times the table. -/
def ctx (v0 : Vec Ideal S4096x1 .i32) (v9 : Vec Ideal S256x64 .bf16) : FVec Ideal S4096x64 .f32 :=
  matmul dot_S4096x256_S256x64_S4096x64_1_0_0_1_n_n none (onehot v0)
    (shapeCast S256x64 v9 shapeCasts_S256x64_S256x64 : FVec Ideal S256x64 .bf16)
    (constant S4096x64 .f32 0x00000000#32)

/-- The 256 features: pooled messages, own features, context row, side by side. -/
def feats (v12 : Vec Ideal S4096x128 .f32) (v13 : Vec Ideal S4096x64 .f32) (c : FVec Ideal S4096x64 .f32) :
    FVec Ideal S4096x256 .bf16 :=
  truncf .bf16 (concatenate S4096x256 1 [⟨S4096x128, v12⟩, ⟨S4096x64, v13⟩, ⟨S4096x64, c⟩]
    concatenates_S4096x128_S4096x64_S4096x64_S4096x256_d1) bitsLt_bf16_f32

/-- A dense layer before its activation: the product with the weights plus the bias row on every row. -/
def preact (x : FVec Ideal S4096x256 .bf16) (W : Vec Ideal S256x256 .bf16) (b : Vec Ideal S1x256 .f32) :
    FVec Ideal S4096x256 .f32 :=
  addf (matmul dot_S4096x256_S256x256_S4096x256_1_0_0_1_n_n none x
      (shapeCast S256x256 W shapeCasts_S256x256_S256x256 : FVec Ideal S256x256 .bf16)
      (constant S4096x256 .f32 0x00000000#32))
    (broadcastTo S4096x256 (shapeCast S1x256 b shapeCasts_S1x256_S1x256) broadcasts_S1x256_S4096x256)

/-- A hidden layer: the dense layer times its own logistic. -/
def layer (x : FVec Ideal S4096x256 .bf16) (W : Vec Ideal S256x256 .bf16) (b : Vec Ideal S1x256 .f32) :
    FVec Ideal S4096x256 .bf16 :=
  truncf .bf16 (mulf (preact x W b) (logistic (preact x W b))) bitsLt_bf16_f32

/-- The linear output layer with the edges' own features laid behind its 128 columns. -/
def final (x : FVec Ideal S4096x256 .bf16) (W : Vec Ideal S256x128 .bf16) (b : Vec Ideal S1x128 .f32)
    (ed : Vec Ideal S4096x64 .f32) : FVec Ideal S4096x192 .f32 :=
  concatenate S4096x192 1 [⟨S4096x128,
      addf (matmul dot_S4096x256_S256x128_S4096x128_1_0_0_1_n_n none x
          (shapeCast S256x128 W shapeCasts_S256x128_S256x128 : FVec Ideal S256x128 .bf16)
          (constant S4096x128 .f32 0x00000000#32))
        (broadcastTo S4096x128 (shapeCast S1x128 b shapeCasts_S1x128_S1x128) broadcasts_S1x128_S4096x128)⟩,
    ⟨S4096x64, ed⟩] concatenates_S4096x128_S4096x64_S4096x192_d1

/-- The payloads are the stages composed. -/
theorem pay_eq (v0 : Vec Ideal S4096x1 .i32) (v9 : Vec Ideal S256x64 .bf16) (v12 : Vec Ideal S4096x128 .f32)
    (v13 : Vec Ideal S4096x64 .f32) (v16 : Vec Ideal S256x256 .bf16) (v19 : Vec Ideal S1x256 .f32)
    (v26 : Vec Ideal S256x256 .bf16) (v29 : Vec Ideal S1x256 .f32) (v36 : Vec Ideal S256x128 .bf16)
    (v39 : Vec Ideal S1x128 .f32) (v43 : Vec Ideal S4096x64 .f32) :
    k0_pay1 (F := Ideal) (k0_pay2 v0 v9 v12 v13 v16 v19 v26 v29) (k0_pay3 v36) v39 v43
      = final (layer (layer (feats v12 v13 (ctx v0 v9)) v16 v19) v26 v29) v36 v39 v43 := rfl

/-! ## The stages read at an entry -/

/-- Two of the words `0 … 255` are equal only when the numbers are. -/
theorem ofNat_inj_of_lt (r g : Fin 256) (h : BitVec.ofNat 32 r.val = BitVec.ofNat 32 g.val) : r = g := by
  have e := congrArg BitVec.toNat h
  rw [BitVec.toNat_ofNat, BitVec.toNat_ofNat] at e
  have hr := r.isLt
  have hg := g.isLt
  exact Fin.ext (by omega)

/-- THE ONE-HOT MATRIX at `(p, g)`: `1` at the column that row `p`'s batch index names, `0` elsewhere. -/
theorem onehot_apply (v0 : Vec Ideal S4096x1 .i32) (p : Fin 4096) (g r : Fin 256)
    (hr : v0 (ix2 p (0 : Fin 1)) = BitVec.ofNat 32 r.val) :
    onehot v0 (ix2 p g) = if g = r then (1 : EReal) else 0 := by
  have e3 : broadcastTo S4096x256 (shapeCast S4096x1 v0 shapeCasts_S4096x1_S4096x1) broadcasts_S4096x1_S4096x256 (ix2 p g)
      = v0 (ix2 p (0 : Fin 1)) := by
    rw [shapeCast_self]
    exact broadcastTo_apply v0 broadcasts_S4096x1_S4096x256 (ix2 p g) (ix2 p (0 : Fin 1)) (fun a => match a with
      | ⟨0, _⟩ => by show p.val = if (4096 : Nat) = 1 then 0 else p.val; rw [if_neg (by decide)]
      | ⟨1, _⟩ => by show 0 = if (1 : Nat) = 1 then 0 else g.val; rw [if_pos rfl])
  have e4 : broadcastTo S4096x256 (iota .tc S1x256 32 [1] iota_S1x256_d1_w32) broadcasts_S1x256_S4096x256 (ix2 p g)
      = BitVec.ofNat 32 g.val := by
    refine (broadcastTo_apply _ broadcasts_S1x256_S4096x256 (ix2 p g) (ix2 (0 : Fin 1) g) (fun a => match a with
      | ⟨0, _⟩ => by show 0 = if (1 : Nat) = 1 then 0 else p.val; rw [if_pos rfl]
      | ⟨1, _⟩ => by show g.val = if (256 : Nat) = 1 then 0 else g.val; rw [if_neg (by decide)])).trans ?_
    exact iota_single_apply .tc S1x256 32 1 iota_S1x256_d1_w32 (ix2 (0 : Fin 1) g)
  show FloatOps.sitofp (F := Ideal) .f32 ((IntOp.cmpi .eq
      (broadcastTo S4096x256 (shapeCast S4096x1 v0 shapeCasts_S4096x1_S4096x1) broadcasts_S4096x1_S4096x256 (ix2 p g))
      (broadcastTo S4096x256 (iota .tc S1x256 32 [1] iota_S1x256_d1_w32) broadcasts_S1x256_S4096x256 (ix2 p g))).setWidth 32) = _
  rw [e3, e4, hr]
  by_cases h : g = r
  · subst h
    rw [if_pos rfl]
    have e1 : IntOp.cmpi .eq (BitVec.ofNat 32 g.val) (BitVec.ofNat 32 g.val) = 1#1 := by simp [IntOp.cmpi]
    rw [e1]
    show ((((1#1 : BitVec 1).setWidth 32).toInt : ℝ) : EReal) = 1
    have e2 : ((1#1 : BitVec 1).setWidth 32).toInt = 1 := by decide
    rw [e2]
    simp
  · rw [if_neg h]
    have hne : ¬BitVec.ofNat 32 r.val = BitVec.ofNat 32 g.val := fun he => h (ofNat_inj_of_lt r g he).symm
    have hb : (BitVec.ofNat 32 r.val == BitVec.ofNat 32 g.val) = false := by
      rw [beq_eq_false_iff_ne]; exact hne
    have e1 : IntOp.cmpi .eq (BitVec.ofNat 32 r.val) (BitVec.ofNat 32 g.val) = 0#1 := by
      show BitVec.ofBool (BitVec.ofNat 32 r.val == BitVec.ofNat 32 g.val) = 0#1
      rw [hb]; rfl
    rw [e1]
    show ((((0#1 : BitVec 1).setWidth 32).toInt : ℝ) : EReal) = 0
    have e2 : ((0#1 : BitVec 1).setWidth 32).toInt = 0 := by decide
    rw [e2]
    simp

/-- THE CONTEXT ROW at `(p, c)`: the product's sum over the table's rows has the one non-zero term of the row the
    batch index names. -/
theorem ctx_apply (v0 : Vec Ideal S4096x1 .i32) (v9 : Vec Ideal S256x64 .bf16) (p : Fin 4096) (c : Fin 64) (r : Fin 256)
    (hr : v0 (ix2 p (0 : Fin 1)) = BitVec.ofNat 32 r.val) :
    ctx v0 v9 (ix2 p c) = v9 (ix2 r c) := by
  unfold ctx
  rw [shapeCast_self]
  refine (matmul_ctx_apply (onehot v0) v9 p c).trans ?_
  rw [Finset.sum_eq_single r]
  · rw [onehot_apply v0 p r r hr, if_pos rfl, one_mul]
  · intro g _ hg
    rw [onehot_apply v0 p g r hr, if_neg hg, zero_mul]
  · intro hn
    exact absurd (Finset.mem_univ r) hn

/-- THE FEATURES at `(p, k)`: the piece whose span holds column `k` — pooled messages below 128, the edge's own
    features below 192, the context row from there on. -/
theorem feats_apply (v12 : Vec Ideal S4096x128 .f32) (v13 : Vec Ideal S4096x64 .f32) (c : FVec Ideal S4096x64 .f32)
    (p : Fin 4096) (k : Fin 256) :
    feats v12 v13 c (ix2 p k)
      = EdgeBlock.feat (fun k => v12 (ix2 p k)) (fun k => v13 (ix2 p k)) (fun k => c (ix2 p k)) k := by
  show concatenate S4096x256 1 [⟨S4096x128, v12⟩, ⟨S4096x64, v13⟩, ⟨S4096x64, c⟩]
    concatenates_S4096x128_S4096x64_S4096x64_S4096x256_d1 (ix2 p k) = _
  unfold EdgeBlock.feat
  have hk := k.isLt
  by_cases h : k.val < 128
  · rw [dif_pos h]
    exact concatenate_apply_piece (t := S4096x256) 1 [⟨S4096x128, v12⟩, ⟨S4096x64, v13⟩, ⟨S4096x64, c⟩]
      concatenates_S4096x128_S4096x64_S4096x64_S4096x256_d1 (ix2 p k) 0 (by show 0 < 3; omega)
      S4096x128 v12 rfl rfl 0 rfl (ix2 p ⟨k.val, h⟩)
      (fun b hb => match b, hb with
        | ⟨0, _⟩, _ => rfl
        | ⟨1, _⟩, hb => (hb (Fin.ext rfl)).elim)
      (by show 0 + k.val = k.val; omega)
  · rw [dif_neg h]
    by_cases h2 : k.val < 192
    · rw [dif_pos h2]
      exact concatenate_apply_piece (t := S4096x256) 1 [⟨S4096x128, v12⟩, ⟨S4096x64, v13⟩, ⟨S4096x64, c⟩]
        concatenates_S4096x128_S4096x64_S4096x64_S4096x256_d1 (ix2 p k) 1 (by show 1 < 3; omega)
        S4096x64 v13 rfl rfl 128 rfl (ix2 p ⟨k.val - 128, by omega⟩)
        (fun b hb => match b, hb with
          | ⟨0, _⟩, _ => rfl
          | ⟨1, _⟩, hb => (hb (Fin.ext rfl)).elim)
        (by show 128 + (k.val - 128) = k.val; omega)
    · rw [dif_neg h2]
      exact concatenate_apply_piece (t := S4096x256) 1 [⟨S4096x128, v12⟩, ⟨S4096x64, v13⟩, ⟨S4096x64, c⟩]
        concatenates_S4096x128_S4096x64_S4096x64_S4096x256_d1 (ix2 p k) 2 (by show 2 < 3; omega)
        S4096x64 c rfl rfl 192 rfl (ix2 p ⟨k.val - 192, by omega⟩)
        (fun b hb => match b, hb with
          | ⟨0, _⟩, _ => rfl
          | ⟨1, _⟩, hb => (hb (Fin.ext rfl)).elim)
        (by show 192 + (k.val - 192) = k.val; omega)

/-- A DENSE LAYER BEFORE ITS ACTIVATION at `(p, n)`: the product's sum plus the bias row's entry. -/
theorem preact_apply (x : FVec Ideal S4096x256 .bf16) (W : Vec Ideal S256x256 .bf16) (b : Vec Ideal S1x256 .f32)
    (p : Fin 4096) (n : Fin 256) :
    preact x W b (ix2 p n)
      = EdgeBlock.dense (fun k => x (ix2 p k)) (fun k n => W (ix2 k n)) (fun n => b (ix2 (0 : Fin 1) n)) n := by
  unfold preact EdgeBlock.dense
  rw [shapeCast_self, shapeCast_self]
  exact congrArg₂ (fun s t : EReal => s + t) (matmul_hid_apply x W p n)
    (broadcastTo_apply b broadcasts_S1x256_S4096x256 (ix2 p n) (ix2 (0 : Fin 1) n) (fun a => match a with
      | ⟨0, _⟩ => by show 0 = if (1 : Nat) = 1 then 0 else p.val; rw [if_pos rfl]
      | ⟨1, _⟩ => by show n.val = if (256 : Nat) = 1 then 0 else n.val; rw [if_neg (by decide)]))

/-- A HIDDEN LAYER at `(p, n)`: SiLU of the dense layer. -/
theorem layer_apply (x : FVec Ideal S4096x256 .bf16) (W : Vec Ideal S256x256 .bf16) (b : Vec Ideal S1x256 .f32)
    (p : Fin 4096) (n : Fin 256) :
    layer x W b (ix2 p n)
      = EdgeBlock.silu (EdgeBlock.dense (fun k => x (ix2 p k)) (fun k n => W (ix2 k n)) (fun n => b (ix2 (0 : Fin 1) n)) n) := by
  show preact x W b (ix2 p n) * Ideal.logistic (preact x W b (ix2 p n)) = _
  rw [preact_apply]
  rfl

/-- THE LAST STAGE at `(p, q)`: the linear layer's entry below column 128, the edge's own feature from there on. -/
theorem final_apply (x : FVec Ideal S4096x256 .bf16) (W : Vec Ideal S256x128 .bf16) (b : Vec Ideal S1x128 .f32)
    (ed : Vec Ideal S4096x64 .f32) (p : Fin 4096) (q : Fin 192) :
    final x W b ed (ix2 p q)
      = if h : q.val < 128 then
          EdgeBlock.dense (fun k => x (ix2 p k)) (fun k j => W (ix2 k j)) (fun j => b (ix2 (0 : Fin 1) j)) ⟨q.val, h⟩
        else ed (ix2 p ⟨q.val - 128, by have := q.isLt; omega⟩) := by
  unfold final EdgeBlock.dense
  rw [shapeCast_self, shapeCast_self]
  have hq := q.isLt
  by_cases h : q.val < 128
  · rw [dif_pos h]
    refine (concatenate_pair_apply_left 1 _ ed concatenates_S4096x128_S4096x64_S4096x192_d1 (ix2 p q) rfl
      (ix2 p ⟨q.val, h⟩) (fun a => match a with
        | ⟨0, _⟩ => rfl
        | ⟨1, _⟩ => rfl)).trans ?_
    exact congrArg₂ (fun s t : EReal => s + t) (matmul_out_apply x W p ⟨q.val, h⟩)
      (broadcastTo_apply b broadcasts_S1x128_S4096x128 (ix2 p ⟨q.val, h⟩) (ix2 (0 : Fin 1) ⟨q.val, h⟩) (fun a => match a with
        | ⟨0, _⟩ => by show 0 = if (1 : Nat) = 1 then 0 else p.val; rw [if_pos rfl]
        | ⟨1, _⟩ => by show q.val = if (128 : Nat) = 1 then 0 else q.val; rw [if_neg (by decide)]))
  · rw [dif_neg h]
    exact concatenate_pair_apply_right 1 _ ed concatenates_S4096x128_S4096x64_S4096x192_d1 (ix2 p q) rfl rfl
      (ix2 p ⟨q.val - 128, by omega⟩)
      (fun a ha => match a, ha with
        | ⟨0, _⟩, _ => rfl
        | ⟨1, _⟩, ha => (ha (Fin.ext rfl)).elim)
      (by show (q.val - 128) + 128 = q.val; omega)

/-- THE BLOCK'S RESULT AT `(p, q)`: the network's output row of edge `p`'s features (columns below 128), or the edge's
    own feature (columns from 128 on). `hr`: row `p`'s batch index is the word of the table row `r`. -/
theorem payload_apply (v0 : Vec Ideal S4096x1 .i32) (v9 : Vec Ideal S256x64 .bf16) (v12 : Vec Ideal S4096x128 .f32)
    (v13 : Vec Ideal S4096x64 .f32) (v16 : Vec Ideal S256x256 .bf16) (v19 : Vec Ideal S1x256 .f32)
    (v26 : Vec Ideal S256x256 .bf16) (v29 : Vec Ideal S1x256 .f32) (v36 : Vec Ideal S256x128 .bf16)
    (v39 : Vec Ideal S1x128 .f32) (v43 : Vec Ideal S4096x64 .f32)
    (p : Fin 4096) (q : Fin 192) (r : Fin 256) (hr : v0 (ix2 p (0 : Fin 1)) = BitVec.ofNat 32 r.val) :
    k0_pay1 (F := Ideal) (k0_pay2 v0 v9 v12 v13 v16 v19 v26 v29) (k0_pay3 v36) v39 v43 (ix2 p q)
      = EdgeBlock.outRow
          (EdgeBlock.feat (fun k => v12 (ix2 p k)) (fun k => v13 (ix2 p k)) (fun k => v9 (ix2 r k)))
          (fun k n => v16 (ix2 k n)) (fun n => v19 (ix2 (0 : Fin 1) n))
          (fun k n => v26 (ix2 k n)) (fun n => v29 (ix2 (0 : Fin 1) n))
          (fun k j => v36 (ix2 k j)) (fun j => v39 (ix2 (0 : Fin 1) j))
          (fun k => v43 (ix2 p k)) q := by
  refine (congrFun (pay_eq v0 v9 v12 v13 v16 v19 v26 v29 v36 v39 v43) (ix2 p q)).trans ?_
  -- the context row of edge `p` is row `r` of the table
  have e0 : (fun c => ctx v0 v9 (ix2 p c)) = fun c => v9 (ix2 r c) := funext fun c => ctx_apply v0 v9 p c r hr
  -- so its 256 features are the specification's feature row
  have e1 : (fun k => feats v12 v13 (ctx v0 v9) (ix2 p k))
      = EdgeBlock.feat (fun k => v12 (ix2 p k)) (fun k => v13 (ix2 p k)) (fun k => v9 (ix2 r k)) :=
    funext fun k => (feats_apply v12 v13 (ctx v0 v9) p k).trans (by rw [e0])
  -- the two hidden layers
  have e2 : (fun n => layer (feats v12 v13 (ctx v0 v9)) v16 v19 (ix2 p n))
      = EdgeBlock.hidden1 (EdgeBlock.feat (fun k => v12 (ix2 p k)) (fun k => v13 (ix2 p k)) (fun k => v9 (ix2 r k)))
          (fun k n => v16 (ix2 k n)) (fun n => v19 (ix2 (0 : Fin 1) n)) :=
    funext fun n => (layer_apply (feats v12 v13 (ctx v0 v9)) v16 v19 p n).trans (by rw [e1]; rfl)
  have e3 : (fun n => layer (layer (feats v12 v13 (ctx v0 v9)) v16 v19) v26 v29 (ix2 p n))
      = EdgeBlock.hidden2 (EdgeBlock.feat (fun k => v12 (ix2 p k)) (fun k => v13 (ix2 p k)) (fun k => v9 (ix2 r k)))
          (fun k n => v16 (ix2 k n)) (fun n => v19 (ix2 (0 : Fin 1) n))
          (fun k n => v26 (ix2 k n)) (fun n => v29 (ix2 (0 : Fin 1) n)) :=
    funext fun n => (layer_apply (layer (feats v12 v13 (ctx v0 v9)) v16 v19) v26 v29 p n).trans (by rw [e2]; rfl)
  -- the output layer and the residual columns
  refine (final_apply (layer (layer (feats v12 v13 (ctx v0 v9)) v16 v19) v26 v29) v36 v39 v43 p q).trans ?_
  rw [e3]
  rfl

end Cert.KernelIdeal.BlockValue

end
-- ==== Proof.HostGlue.lean ====
/-
  What the kernel's windows stage, in terms of the program's arguments.

  Before the region the program prepares seven small arrays on the host: the batch indices clipped into `[0, 255]` and
  viewed as one column; the context table `[globs | cndts]` (its change of float format is the identity on the extended
  reals); the three weight matrices (a change of format again); and the three biases viewed as rows. Each is read here
  at one entry, as the argument it comes from.
-/
import proofs.«418049_j5076651344271_2_alg».proof.Proof.Gen.KernelIdeal.Frame
import proofs.«418049_j5076651344271_2_alg».proof.Proof.Spec
import Idealize.ShloMosaic.Lib.ValueIdx
import Idealize.ShloMosaic.Lib.Pipeline.Value
import Idealize.ShloMosaic.Lib.StableHlo.Run
import Idealize.ShloMosaic.Lib.ValueLayout

noncomputable section

namespace Cert.KernelIdeal.HostGlue

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- A word naming one of `0 … 255` reads, as a signed integer, that number: it is below `2³¹`. -/
theorem toInt_ofNat_lt256 (r : Fin 256) : (BitVec.ofNat 32 r.val).toInt = (r.val : Int) := by
  have hr := r.isLt
  rw [BitVec.toInt_eq_toNat_cond, BitVec.toNat_ofNat]
  have h1 : r.val % 2 ^ 32 = r.val := Nat.mod_eq_of_lt (by omega)
  rw [h1, if_pos (by omega)]

/-- The signed maximum of `0` and a word naming one of `0 … 255` is that word: it is not negative. -/
theorem maxsi_zero_ofNat (r : Fin 256) : IntOp.maxsi 0#32 (BitVec.ofNat 32 r.val) = BitVec.ofNat 32 r.val := by
  unfold IntOp.maxsi
  refine if_neg ?_
  rw [BitVec.slt, decide_eq_true_eq, toInt_ofNat_lt256]
  show ¬ ((r.val : Int) < 0)
  omega

/-- The signed minimum of `255` and a word naming one of `0 … 255` is that word: it does not exceed `255`. -/
theorem minsi_255_ofNat (r : Fin 256) : IntOp.minsi 255#32 (BitVec.ofNat 32 r.val) = BitVec.ofNat 32 r.val := by
  unfold IntOp.minsi
  refine if_neg ?_
  have hr := r.isLt
  rw [BitVec.slt, decide_eq_true_eq, toInt_ofNat_lt256]
  show ¬ ((255 : Int) < (r.val : Int))
  omega

/-- The staged batch indices: a word of one of the 256 graphs is its own clip, so the column holds it unchanged. -/
theorem staged_idx (c : Dev nD) (e : Fin 262144) (r : Fin 256)
    (hr : (m ((c : Thread nD τ).loc main_arg4) : S262144.Idx → BitVec 32) (ix1 e) = BitVec.ofNat 32 r.val) :
    (V m c main_v1 : S262144x1.Idx → BitVec 32) (ix2 e (0 : Fin 1)) = BitVec.ofNat 32 r.val := by
  -- the column is the reshape of min(255, max(0, ·)) of the argument, the two bounds broadcast scalars
  have e1 : (V m c main_v1 : S262144x1.Idx → BitVec 32)
      = shapeCast S262144x1
          (minsi (broadcastInDim S262144 ![] bcast_S_S262144 (constantI S_ 32 255#32))
            (maxsi (broadcastInDim S262144 ![] bcast_S_S262144 (constantI S_ 32 0#32))
              (m ((c : Thread nD τ).loc main_arg4) : S262144.Idx → BitVec 32)))
          shapeCasts_S262144_S262144x1 := by
    dsimp only [Gen.V]
    simp only [Gen.hostOps0, Gen.hostOps0_1, Gen.hostOps0_2, List.flatten_cons, List.flatten_nil, List.append_nil, List.cons_append, List.nil_append]
    after_results
    rfl
  rw [e1]
  -- entry (e, 0) of the column is entry e of the vector: both lie at row-major position e
  refine (shapeCast_apply _ _ (ix2 e (0 : Fin 1)) (ix1 e) (by
    rw [Shape.rowMajor_val_two, Shape.rowMajor_val_one]
    show e.val = e.val * 1 + 0
    omega)).trans ?_
  -- there the clip is min(255, max(0, w)) on the argument's word w, which is r
  show IntOp.minsi 255#32 (IntOp.maxsi 0#32 ((m ((c : Thread nD τ).loc main_arg4) : S262144.Idx → BitVec 32) (ix1 e))) = _
  rw [hr, maxsi_zero_ofNat, minsi_255_ofNat]

/-- The staged context table: row `g` is graph `g`'s globals followed by its conditions. -/
theorem staged_table (c : Dev nD) (g : Fin 256) (k : Fin 64) :
    (V m c main_v3 : S256x64.Idx → EReal) (ix2 g k)
      = EdgeBlock.tableRow (fun j => (m ((c : Thread nD τ).loc main_arg2) : S256x32.Idx → EReal) (ix2 g j))
          (fun j => (m ((c : Thread nD τ).loc main_arg3) : S256x32.Idx → EReal) (ix2 g j)) k := by
  -- the table is the concatenation along the columns, under a change of float format (the identity here)
  have e : (V m c main_v3 : S256x64.Idx → EReal)
      = truncf (F := Ideal) .bf16
          (concatenate S256x64 1 [⟨S256x32, (m ((c : Thread nD τ).loc main_arg2) : S256x32.Idx → EReal)⟩,
            ⟨S256x32, (m ((c : Thread nD τ).loc main_arg3) : S256x32.Idx → EReal)⟩] concatenates_S256x32_S256x32_S256x64_d1)
          bitsLt_bf16_f32 := by
    dsimp only [Gen.V]
    simp only [Gen.hostOps0, Gen.hostOps0_1, Gen.hostOps0_2, List.flatten_cons, List.flatten_nil, List.append_nil, List.cons_append, List.nil_append]
    after_results
  rw [e, truncf_apply]
  unfold EdgeBlock.tableRow
  by_cases h : k.val < 32
  · -- a column below 32 lies in the first piece, at the same coordinates
    rw [dif_pos h]
    exact concatenate_pair_apply_left (t := S256x64) (s₁ := S256x32) (s₂ := S256x32) 1 _ _ _ (ix2 g k) rfl (ix2 g ⟨k.val, h⟩)
      (fun b => match b with | ⟨0, _⟩ => rfl | ⟨1, _⟩ => rfl)
  · -- a column from 32 on lies in the second piece, 32 columns further left
    rw [dif_neg h]
    have hk := k.isLt
    exact concatenate_pair_apply_right (t := S256x64) (s₁ := S256x32) (s₂ := S256x32) 1 _ _ _ (ix2 g k) rfl rfl
      (ix2 g ⟨k.val - 32, by omega⟩)
      (fun b => match b with | ⟨0, _⟩ => fun _ => rfl | ⟨1, _⟩ => fun hne => absurd rfl hne)
      (by show k.val - 32 + 32 = k.val; omega)

/-- The staged first weight matrix is the argument. -/
theorem staged_W1 (c : Dev nD) :
    (V m c main_v4 : S256x256.Idx → EReal) = (m ((c : Thread nD τ).loc main_arg5) : S256x256.Idx → EReal) := by
  have e : (V m c main_v4 : S256x256.Idx → EReal)
      = truncf (F := Ideal) .bf16 (m ((c : Thread nD τ).loc main_arg5) : S256x256.Idx → EReal) bitsLt_bf16_f32 := by
    dsimp only [Gen.V]
    simp only [Gen.hostOps0, Gen.hostOps0_1, Gen.hostOps0_2, List.flatten_cons, List.flatten_nil, List.append_nil, List.cons_append, List.nil_append]
    after_results
  rw [e]
  funext i
  exact truncf_apply _ _ i

/-- The staged second weight matrix is the argument. -/
theorem staged_W2 (c : Dev nD) :
    (V m c main_v5 : S256x256.Idx → EReal) = (m ((c : Thread nD τ).loc main_arg7) : S256x256.Idx → EReal) := by
  have e : (V m c main_v5 : S256x256.Idx → EReal)
      = truncf (F := Ideal) .bf16 (m ((c : Thread nD τ).loc main_arg7) : S256x256.Idx → EReal) bitsLt_bf16_f32 := by
    dsimp only [Gen.V]
    simp only [Gen.hostOps0, Gen.hostOps0_1, Gen.hostOps0_2, List.flatten_cons, List.flatten_nil, List.append_nil, List.cons_append, List.nil_append]
    after_results
  rw [e]
  funext i
  exact truncf_apply _ _ i

/-- The staged third weight matrix is the argument. -/
theorem staged_W3 (c : Dev nD) :
    (V m c main_v6 : S256x128.Idx → EReal) = (m ((c : Thread nD τ).loc main_arg9) : S256x128.Idx → EReal) := by
  have e : (V m c main_v6 : S256x128.Idx → EReal)
      = truncf (F := Ideal) .bf16 (m ((c : Thread nD τ).loc main_arg9) : S256x128.Idx → EReal) bitsLt_bf16_f32 := by
    dsimp only [Gen.V]
    simp only [Gen.hostOps0, Gen.hostOps0_1, Gen.hostOps0_2, List.flatten_cons, List.flatten_nil, List.append_nil, List.cons_append, List.nil_append]
    after_results
  rw [e]
  funext i
  exact truncf_apply _ _ i

/-- The staged first bias, one row, is the argument's entries. -/
theorem staged_b1 (c : Dev nD) (n : Fin 256) :
    (V m c main_v7 : S1x256.Idx → EReal) (ix2 (0 : Fin 1) n)
      = (m ((c : Thread nD τ).loc main_arg6) : S256.Idx → EReal) (ix1 n) := by
  have e : (V m c main_v7 : S1x256.Idx → EReal)
      = shapeCast S1x256 (m ((c : Thread nD τ).loc main_arg6) : S256.Idx → EReal) shapeCasts_S256_S1x256 := by
    dsimp only [Gen.V]
    simp only [Gen.hostOps0, Gen.hostOps0_1, Gen.hostOps0_2, List.flatten_cons, List.flatten_nil, List.append_nil, List.cons_append, List.nil_append]
    after_results
    rfl
  rw [e]
  exact shapeCast_a_1a_apply _ _ _ _

/-- The staged second bias, one row, is the argument's entries. -/
theorem staged_b2 (c : Dev nD) (n : Fin 256) :
    (V m c main_v8 : S1x256.Idx → EReal) (ix2 (0 : Fin 1) n)
      = (m ((c : Thread nD τ).loc main_arg8) : S256.Idx → EReal) (ix1 n) := by
  have e : (V m c main_v8 : S1x256.Idx → EReal)
      = shapeCast S1x256 (m ((c : Thread nD τ).loc main_arg8) : S256.Idx → EReal) shapeCasts_S256_S1x256 := by
    dsimp only [Gen.V]
    simp only [Gen.hostOps0, Gen.hostOps0_1, Gen.hostOps0_2, List.flatten_cons, List.flatten_nil, List.append_nil, List.cons_append, List.nil_append]
    after_results
    rfl
  rw [e]
  exact shapeCast_a_1a_apply _ _ _ _

/-- The staged third bias, one row, is the argument's entries. -/
theorem staged_b3 (c : Dev nD) (j : Fin 128) :
    (V m c main_v9 : S1x128.Idx → EReal) (ix2 (0 : Fin 1) j)
      = (m ((c : Thread nD τ).loc main_arg10) : S128.Idx → EReal) (ix1 j) := by
  have e : (V m c main_v9 : S1x128.Idx → EReal)
      = shapeCast S1x128 (m ((c : Thread nD τ).loc main_arg10) : S128.Idx → EReal) shapeCasts_S128_S1x128 := by
    dsimp only [Gen.V]
    simp only [Gen.hostOps0, Gen.hostOps0_1, Gen.hostOps0_2, List.flatten_cons, List.flatten_nil, List.append_nil, List.cons_append, List.nil_append]
    after_results
    rfl
  rw [e]
  exact shapeCast_a_1a_apply _ _ _ _

end Cert.KernelIdeal.HostGlue

end
-- ==== Proof.KernelValue.lean ====
/-
  The kernel's result array is `EdgeBlock.G` of the arguments.

  The grid has 64 points; point `t` works on the 4096 edges `4096 t … 4096 t + 4095`: it is handed rows `4096 t …` of
  the pooled messages, of the edges' features and of the (clipped) batch indices, the whole context table, the whole
  weight matrices and bias rows, and writes rows `4096 t …` of the result. So row `p` of block `t` is edge
  `e = 4096 t + p`, what the point writes there is the block's value at `(p, q)`, which is `EdgeBlock.outRow` of edge
  `e`'s features, and the 64 blocks tile the `[262144, 192]` result: row `r` lies in block `r / 4096`.
-/
import proofs.«418049_j5076651344271_2_alg».proof.Proof.Gen.KernelIdeal.Value
import proofs.«418049_j5076651344271_2_alg».proof.Proof.BlockValue
import proofs.«418049_j5076651344271_2_alg».proof.Proof.HostGlue
import proofs.«418049_j5076651344271_2_alg».proof.Proof.Spec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.ShloMosaic.ValueIdx
  Idealize.SL.Sem
open Idealize.ShloMosaic.Pipeline (Dat)

variable (m : (ℓ : Loc nD τ sig) → Buf (Elt Ideal) ℓ) (ρ : Dev nD → PrngReg)

/-- Every batch index of core `c`'s argument is the word of one of the table's 256 rows. -/
def InRange (c : Dev nD) : Prop :=
  ∀ e : Fin 262144, ∃ r : Fin 256,
    (m ((c : Thread nD τ).loc main_arg4) : S262144.Idx → BitVec 32) (ix1 e) = BitVec.ofNat 32 r.val

/-- The specification at core `c`'s arguments. -/
abbrev result (c : Dev nD) : S262144x192.Idx → EReal :=
  EdgeBlock.G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem origin : (![0, 0] : Fin 2 → Nat) = fun _ => 0 := funext fun a => by fin_cases a <;> rfl

/-- The printed index maps over the 64 points: the four row-blocked windows are at block `(t, 0)`, the seven whole
    windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0 :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Edge number of row `p` of block `t`. -/
def edgeOf (t : Fin cfg0.N) (p : Fin 4096) : Fin 262144 :=
  ⟨4096 * t.val + p.val, by have ht : t.val < 64 := t.isLt; have := p.isLt; omega⟩

/-! ## Each window's block, read at an entry -/

theorem blk_pm (c : Dev nD) (t : Fin cfg0.N) (p : Fin 4096) (k : Fin 128) :
    (iblk m c 0 t : S4096x128.Idx → EReal) (ix2 p k)
      = (m ((c : Thread nD τ).loc main_arg0) : S262144x128.Idx → EReal) (ix2 (edgeOf t p) k) := by
  obtain ⟨e0, e1, -⟩ := idx_facts t
  show (V m c main_arg0 : S262144x128.Idx → EReal) (((cfg0.win 0).blk t).view.emb (ix2 p k)) = _
  rw [V_main_arg0]
  refine congrArg _ (funext fun a => Fin.ext ?_)
  match a with
  | ⟨0, _⟩ => show win0_0.index t (0 : Fin 2) * 4096 + 1 * p.val = 4096 * t.val + p.val; omega
  | ⟨1, _⟩ => show win0_0.index t (1 : Fin 2) * 128 + 1 * k.val = k.val; omega

theorem blk_ed (c : Dev nD) (t : Fin cfg0.N) (p : Fin 4096) (k : Fin 64) :
    (iblk m c 1 t : S4096x64.Idx → EReal) (ix2 p k)
      = (m ((c : Thread nD τ).loc main_arg1) : S262144x64.Idx → EReal) (ix2 (edgeOf t p) k) := by
  obtain ⟨-, -, e0, e1, -⟩ := idx_facts t
  show (V m c main_arg1 : S262144x64.Idx → EReal) (((cfg0.win 1).blk t).view.emb (ix2 p k)) = _
  rw [V_main_arg1]
  refine congrArg _ (funext fun a => Fin.ext ?_)
  match a with
  | ⟨0, _⟩ => show win0_1.index t (0 : Fin 2) * 4096 + 1 * p.val = 4096 * t.val + p.val; omega
  | ⟨1, _⟩ => show win0_1.index t (1 : Fin 2) * 64 + 1 * k.val = k.val; omega

theorem blk_idx (c : Dev nD) (t : Fin cfg0.N) (p : Fin 4096) (r : Fin 256)
    (hr : (m ((c : Thread nD τ).loc main_arg4) : S262144.Idx → BitVec 32) (ix1 (edgeOf t p)) = BitVec.ofNat 32 r.val) :
    (iblk m c 2 t : S4096x1.Idx → BitVec 32) (ix2 p (0 : Fin 1)) = BitVec.ofNat 32 r.val := by
  obtain ⟨-, -, -, -, e0, e1, -⟩ := idx_facts t
  show (V m c main_v1 : S262144x1.Idx → BitVec 32) (((cfg0.win 2).blk t).view.emb (ix2 p (0 : Fin 1))) = _
  rw [← HostGlue.staged_idx m c (edgeOf t p) r hr]
  refine congrArg _ (funext fun a => Fin.ext ?_)
  match a with
  | ⟨0, _⟩ => show win0_2.index t (0 : Fin 2) * 4096 + 1 * p.val = 4096 * t.val + p.val; omega
  | ⟨1, _⟩ => show win0_2.index t (1 : Fin 2) * 1 + 1 * 0 = 0; omega

theorem blk_table (c : Dev nD) (t : Fin cfg0.N) (g : Fin 256) (k : Fin 64) :
    (iblk m c 3 t : S256x64.Idx → EReal) (ix2 g k)
      = EdgeBlock.tableRow (fun j => (m ((c : Thread nD τ).loc main_arg2) : S256x32.Idx → EReal) (ix2 g j))
          (fun j => (m ((c : Thread nD τ).loc main_arg3) : S256x32.Idx → EReal) (ix2 g j)) k := by
  obtain ⟨e0, e1, -⟩ := idx_whole t
  show (V m c main_v3 : S256x64.Idx → EReal) (((cfg0.win 3).blk t).view.emb (ix2 g k)) = _
  rw [← HostGlue.staged_table m c g k]
  refine congrArg _ (funext fun a => Fin.ext ?_)
  match a with
  | ⟨0, _⟩ => show win0_3.index t (0 : Fin 2) * 256 + 1 * g.val = g.val; omega
  | ⟨1, _⟩ => show win0_3.index t (1 : Fin 2) * 64 + 1 * k.val = k.val; omega

theorem blk_W1 (c : Dev nD) (t : Fin cfg0.N) (k n : Fin 256) :
    (iblk m c 4 t : S256x256.Idx → EReal) (ix2 k n)
      = (m ((c : Thread nD τ).loc main_arg5) : S256x256.Idx → EReal) (ix2 k n) := by
  obtain ⟨-, -, e0, e1, -⟩ := idx_whole t
  show (V m c main_v4 : S256x256.Idx → EReal) (((cfg0.win 4).blk t).view.emb (ix2 k n)) = _
  rw [HostGlue.staged_W1 m c]
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * n.val = n.val; omega

theorem blk_b1 (c : Dev nD) (t : Fin cfg0.N) (n : Fin 256) :
    (iblk m c 5 t : S1x256.Idx → EReal) (ix2 (0 : Fin 1) n)
      = (m ((c : Thread nD τ).loc main_arg6) : S256.Idx → EReal) (ix1 n) := by
  obtain ⟨-, -, -, -, e0, e1, -⟩ := idx_whole t
  show (V m c main_v7 : S1x256.Idx → EReal) (((cfg0.win 5).blk t).view.emb (ix2 (0 : Fin 1) n)) = _
  rw [← HostGlue.staged_b1 m c n]
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * n.val = n.val; omega

theorem blk_W2 (c : Dev nD) (t : Fin cfg0.N) (k n : Fin 256) :
    (iblk m c 6 t : S256x256.Idx → EReal) (ix2 k n)
      = (m ((c : Thread nD τ).loc main_arg7) : S256x256.Idx → EReal) (ix2 k n) := by
  obtain ⟨-, -, -, -, -, -, e0, e1, -⟩ := idx_whole t
  show (V m c main_v5 : S256x256.Idx → EReal) (((cfg0.win 6).blk t).view.emb (ix2 k n)) = _
  rw [HostGlue.staged_W2 m c]
  refine congrArg _ (funext fun a => Fin.ext ?_)
  match a with
  | ⟨0, _⟩ => show win0_6.index t (0 : Fin 2) * 256 + 1 * k.val = k.val; omega
  | ⟨1, _⟩ => show win0_6.index t (1 : Fin 2) * 256 + 1 * n.val = n.val; omega

theorem blk_b2 (c : Dev nD) (t : Fin cfg0.N) (n : Fin 256) :
    (iblk m c 7 t : S1x256.Idx → EReal) (ix2 (0 : Fin 1) n)
      = (m ((c : Thread nD τ).loc main_arg8) : S256.Idx → EReal) (ix1 n) := by
  obtain ⟨-, -, -, -, -, -, -, -, e0, e1, -⟩ := idx_whole t
  show (V m c main_v8 : S1x256.Idx → EReal) (((cfg0.win 7).blk t).view.emb (ix2 (0 : Fin 1) n)) = _
  rw [← HostGlue.staged_b2 m c n]
  refine congrArg _ (funext fun a => Fin.ext ?_)
  match a with
  | ⟨0, _⟩ => show win0_7.index t (0 : Fin 2) * 1 + 1 * 0 = 0; omega
  | ⟨1, _⟩ => show win0_7.index t (1 : Fin 2) * 256 + 1 * n.val = n.val; omega

theorem blk_W3 (c : Dev nD) (t : Fin cfg0.N) (k : Fin 256) (j : Fin 128) :
    (iblk m c 8 t : S256x128.Idx → EReal) (ix2 k j)
      = (m ((c : Thread nD τ).loc main_arg9) : S256x128.Idx → EReal) (ix2 k j) := by
  obtain ⟨-, -, -, -, -, -, -, -, -, -, e0, e1, -⟩ := idx_whole t
  show (V m c main_v6 : S256x128.Idx → EReal) (((cfg0.win 8).blk t).view.emb (ix2 k j)) = _
  rw [HostGlue.staged_W3 m c]
  refine congrArg _ (funext fun a => Fin.ext ?_)
  match a with
  | ⟨0, _⟩ => show win0_8.index t (0 : Fin 2) * 256 + 1 * k.val = k.val; omega
  | ⟨1, _⟩ => show win0_8.index t (1 : Fin 2) * 128 + 1 * j.val = j.val; omega

theorem blk_b3 (c : Dev nD) (t : Fin cfg0.N) (j : Fin 128) :
    (iblk m c 9 t : S1x128.Idx → EReal) (ix2 (0 : Fin 1) j)
      = (m ((c : Thread nD τ).loc main_arg10) : S128.Idx → EReal) (ix1 j) := by
  obtain ⟨-, -, -, -, -, -, -, -, -, -, -, -, e0, e1⟩ := idx_whole t
  show (V m c main_v9 : S1x128.Idx → EReal) (((cfg0.win 9).blk t).view.emb (ix2 (0 : Fin 1) j)) = _
  rw [← HostGlue.staged_b3 m c j]
  refine congrArg _ (funext fun a => Fin.ext ?_)
  match a with
  | ⟨0, _⟩ => show win0_9.index t (0 : Fin 2) * 1 + 1 * 0 = 0; omega
  | ⟨1, _⟩ => show win0_9.index t (1 : Fin 2) * 128 + 1 * j.val = j.val; omega

/-! ## What a point writes back -/

/-- WHAT POINT `t` WRITES BACK is block `t` of the specification. -/
theorem flushed_eq (c : Dev nD) (hb : InRange m c) (t : Fin cfg0.N) :
    (dats m 0 c).flushed 10 t = ((cfg0.win 10).blk t).view.read (Elt Ideal) (result m c) := by
  rw [Value.flushed10]
  unfold out0_10
  rw [View.canon_unit_zero origin]
  simp only [View.ld_unit_zero (S := S4096x1) origin, View.ld_unit_zero (S := S256x64) origin,
    View.ld_unit_zero (S := S4096x128) origin, View.ld_unit_zero (S := S4096x64) origin,
    View.ld_unit_zero (S := S256x256) origin, View.ld_unit_zero (S := S1x256) origin,
    View.ld_unit_zero (S := S256x128) origin, View.ld_unit_zero (S := S1x128) origin]
  refine funext fun (j : S4096x192.Idx) => ?_
  obtain ⟨p, q, rfl⟩ : ∃ (p : Fin 4096) (q : Fin 192), j = ix2 p q := ⟨j 0, j 1, eq_ix2 j⟩
  obtain ⟨r, hr⟩ := hb (edgeOf t p)
  obtain ⟨-, -, -, -, -, -, e0, e1⟩ := idx_facts t
  have hemb : ((cfg0.win 10).blk t).view.emb (ix2 p q) = (ix2 (edgeOf t p) q : S262144x192.Idx) := by
    refine funext fun a => Fin.ext ?_
    match a with
    | ⟨0, _⟩ => show win0_10.index t (0 : Fin 2) * 4096 + 1 * p.val = 4096 * t.val + p.val; omega
    | ⟨1, _⟩ => show win0_10.index t (1 : Fin 2) * 192 + 1 * q.val = q.val; omega
  show k0_pay1 (F := Ideal) (k0_pay2 (iblk m c 2 t) (iblk m c 3 t) (iblk m c 0 t) (iblk m c 1 t) (iblk m c 4 t) (iblk m c 5 t) (iblk m c 6 t) (iblk m c 7 t))
      (k0_pay3 (iblk m c 8 t)) (iblk m c 9 t) (iblk m c 1 t) (ix2 p q)
    = result m c (((cfg0.win 10).blk t).view.emb (ix2 p q))
  rw [hemb]
  refine (BlockValue.payload_apply (iblk m c 2 t) (iblk m c 3 t) (iblk m c 0 t) (iblk m c 1 t) (iblk m c 4 t)
    (iblk m c 5 t) (iblk m c 6 t) (iblk m c 7 t) (iblk m c 8 t) (iblk m c 9 t) (iblk m c 1 t) p q r
    (blk_idx m c t p r hr)).trans ?_
  show _ = EdgeBlock.outRow _ _ _ _ _ _ _ _ q
  rw [hr, EdgeBlock.rowOf_ofNat]
  simp only [blk_pm m c t, blk_ed m c t, blk_table m c t, blk_W1 m c t, blk_b1 m c t, blk_W2 m c t, blk_b2 m c t,
    blk_W3 m c t, blk_b3 m c t]

/-! ## The blocks tile the array -/

theorem mem_blk (t : Fin cfg0.N) (i : S262144x192.Idx) :
    i ∈ ((cfg0.win 10).blk t).view.set ↔ ∀ a : Fin 2, win0_10.index t a * S4096x192.size a ≤ (i a).val ∧ (i a).val < win0_10.index t a * S4096x192.size a + S4096x192.size a := by
  show i ∈ ((View.whole main_v10).slice (win0_10.rect t)).set ↔ _
  rw [View.set_slice_whole, Rect.mem_set_unit]
  exact Iff.rfl

/-- Row `r` of the result lies in block `r / 4096`. -/
theorem cover (i : S262144x192.Idx) :
    ∃ t : Fin cfg0.N, (cfg0.win 10).flush t = true ∧ i ∈ ((cfg0.win 10).blk t).view.set := by
  have hi0 : (i 0).val < 262144 := (i 0).isLt
  have hi1 : (i 1).val < 192 := (i 1).isLt
  have ht : (i 0).val / 4096 < cfg0.N := by show (i 0).val / 4096 < 64; omega
  refine ⟨⟨(i 0).val / 4096, ht⟩, flush0_10 _, ?_⟩
  obtain ⟨-, -, -, -, -, -, e0, e1⟩ := idx_facts ⟨(i 0).val / 4096, ht⟩
  rw [mem_blk]
  intro a
  match a with
  | ⟨0, _⟩ =>
    show win0_10.index ⟨(i 0).val / 4096, ht⟩ (0 : Fin 2) * 4096 ≤ (i 0).val ∧ (i 0).val < win0_10.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_10.index ⟨(i 0).val / 4096, ht⟩ (1 : Fin 2) * 192 ≤ (i 1).val ∧ (i 1).val < win0_10.index ⟨(i 0).val / 4096, ht⟩ (1 : Fin 2) * 192 + 192
    rw [e1]; omega

/-- THE RESULT ARRAY after the run is the specification of the arguments. -/
theorem final (c : Dev nD) (hb : InRange m c) : (dats m 0 c).arrAt 10 cfg0.N = result m c :=
  (dats m 0 c).arrAt_eq_of_cover 10 (result m c) (fun t _ => flushed_eq m c hb t) cover

/-- The kernel's run, re-posted: the result array at the specification, the arguments unchanged. -/
theorem run (hb : ∀ c : Dev nD, InRange m c) :
    θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c (hb c)), (h c).2⟩) (Value.run_blocks m ρ)

end Cert.KernelIdeal.ArrayValue

end
-- ==== Proof.RefValue.lean ====
/-
  The reference's result is `EdgeBlock.G`.

  The reference gathers each edge's context row from the table `[globs | cndts]` (a negative index first has 256 added,
  as array indexing does; the gather then reads the index clamped into `[0, 255]`), lays pooled messages, edge features
  and context side by side, applies the three dense layers as whole matrix products with `silu x = x · (1 / (1 + e^(−x)))`
  between them, and lays the edges' features behind the result. For a batch index that is the word of one of the 256
  graphs neither the added 256 nor the clamp does anything, and the gathered row is that graph's.
-/
import proofs.«418049_j5076651344271_2_alg».proof.Proof.RefRead
import proofs.«418049_j5076651344271_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Words: a batch index that is one of the 256 graphs -/

/-- The word of a number below 256 is that number, read signed. -/
theorem toInt_ofNat_lt (r : Nat) (h : r < 256) : (BitVec.ofNat 32 r).toInt = (r : Int) := by
  rw [BitVec.toInt_eq_toNat_of_lt]
  · rw [BitVec.toNat_ofNat]; congr 1; omega
  · rw [BitVec.toNat_ofNat]; omega

/-- Such a word is not negative: the signed comparison with zero is the bit 0. -/
theorem slt_zero_of_lt (r : Nat) (h : r < 256) : IntOp.cmpi .slt (BitVec.ofNat 32 r) 0#32 = 0#1 := by
  show BitVec.ofBool ((BitVec.ofNat 32 r).slt 0#32) = 0#1
  have : (BitVec.ofNat 32 r).slt 0#32 = false := by
    rw [BitVec.slt, toInt_ofNat_lt r h]
    simp
  rw [this]; rfl

/-- Clamped into the table's range, such a word is still that number. -/
theorem clamp_of_lt (r : Nat) (h : r < 256) : min (BitVec.ofNat 32 r).toInt.toNat 255 = r := by
  rw [toInt_ofNat_lt r h, Int.toNat_natCast]; omega

/-! ## The gather at an index -/

/-- THE GATHER READ AT `(e, c)`: the table at the row the start index names (read signed, clamped into `[0, 255]`),
    at column `c`. -/
theorem gather_apply {α : Type} {w : Nat} (x : S256x64.Idx → α) (idx : IVec S262144x1 w) (e : Fin 262144) (c : Fin 64) :
    Host.gather gather_S256x64_S262144x1_S262144x64_1_0_n_n_0_1_164 x idx (ix2 e c)
      = x (ix2 ⟨min (idx (ix2 e 0)).toInt.toNat 255, by omega⟩ c) := by
  unfold Host.gather
  congr 1
  funext a
  refine Fin.ext ?_
  match a with
  | ⟨0, _⟩ =>
    -- the collapsed axis: the clamped start index, no batching or offset coordinate
    show gather_S256x64_S262144x1_S262144x64_1_0_n_n_0_1_164.start (ix2 e c) idx 0
        + gather_S256x64_S262144x1_S262144x64_1_0_n_n_0_1_164.batchCoord (ix2 e c) 0
        + gather_S256x64_S262144x1_S262144x64_1_0_n_n_0_1_164.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x64_S262144x1_S262144x64_1_0_n_n_0_1_164.startIndexMap from
      List.mem_singleton.mpr rfl)]
    have hsi : gather_S256x64_S262144x1_S262144x64_1_0_n_n_0_1_164.siIdx (ix2 e c)
        ⟨List.idxOf (0 : Fin 2) gather_S256x64_S262144x1_S262144x64_1_0_n_n_0_1_164.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the offset axis: no start (the start index map does not name it), the result's own column
    show gather_S256x64_S262144x1_S262144x64_1_0_n_n_0_1_164.start (ix2 e c) idx 1
        + gather_S256x64_S262144x1_S262144x64_1_0_n_n_0_1_164.batchCoord (ix2 e c) 1
        + gather_S256x64_S262144x1_S262144x64_1_0_n_n_0_1_164.offCoord (ix2 e c) 1 = c.val
    rw [GatherDims.batchCoord_eq_zero _ _ _ List.not_mem_nil]
    unfold GatherDims.start
    rw [dif_neg (show ¬ (1 : Fin 2) ∈ gather_S256x64_S262144x1_S262144x64_1_0_n_n_0_1_164.startIndexMap by decide)]
    simp only [Nat.add_zero, Nat.zero_add]
    unfold GatherDims.offCoord
    rw [dif_pos (show (1 : Fin 2) ∈ gather_S256x64_S262144x1_S262144x64_1_0_n_n_0_1_164.sKept by decide)]
    rfl

/-! ## The concatenations along the columns, at an index -/

section Cat
variable {α : Type}

/-- Two blocks of rows side by side, read left of the seam: the left block at the same place. -/
theorem cat_left {R n₁ n₂ n : Nat} (a : (⟨2, ![R, n₁]⟩ : Shape).Idx → α) (b : (⟨2, ![R, n₂]⟩ : Shape).Idx → α)
    (h : Shape.Concatenates [(⟨2, ![R, n₁]⟩ : Shape), (⟨2, ![R, n₂]⟩ : Shape)] (⟨2, ![R, n]⟩ : Shape) 1)
    (e : Fin R) (q : Fin n) (hq : q.val < n₁) :
    concatenate (⟨2, ![R, n]⟩ : Shape) 1 [⟨(⟨2, ![R, n₁]⟩ : Shape), a⟩, ⟨(⟨2, ![R, n₂]⟩ : Shape), b⟩] h (ix2 e q)
      = a (ix2 e ⟨q.val, hq⟩) :=
  concatenate_pair_apply_left 1 a b h (ix2 e q) rfl (ix2 e ⟨q.val, hq⟩) (fun c => by
    match c with
    | ⟨0, _⟩ => rfl
    | ⟨1, _⟩ => rfl)

/-- Read right of the seam: the right block, the left block's width less. -/
theorem cat_right {R n₁ n₂ n : Nat} (a : (⟨2, ![R, n₁]⟩ : Shape).Idx → α) (b : (⟨2, ![R, n₂]⟩ : Shape).Idx → α)
    (h : Shape.Concatenates [(⟨2, ![R, n₁]⟩ : Shape), (⟨2, ![R, n₂]⟩ : Shape)] (⟨2, ![R, n]⟩ : Shape) 1)
    (e : Fin R) (q : Fin n) (hq : n₁ ≤ q.val) (hq₂ : q.val - n₁ < n₂) :
    concatenate (⟨2, ![R, n]⟩ : Shape) 1 [⟨(⟨2, ![R, n₁]⟩ : Shape), a⟩, ⟨(⟨2, ![R, n₂]⟩ : Shape), b⟩] h (ix2 e q)
      = b (ix2 e ⟨q.val - n₁, hq₂⟩) :=
  concatenate_pair_apply_right 1 a b h (ix2 e q) rfl rfl (ix2 e ⟨q.val - n₁, hq₂⟩) (fun c hc => by
    match c with
    | ⟨0, _⟩ => rfl
    | ⟨1, _⟩ => exact absurd rfl hc) (by
    show q.val - n₁ + n₁ = q.val
    omega)

end Cat

/-! ## SiLU in the host's operations -/

/-- The word of the constant one. -/
theorem one_bits : Ideal.ofBits .f32 0x3F800000#32 = (1 : EReal) := by
  simp [Ideal.ofBits, Ideal.ieee, -EReal.coe_mul]; norm_num

/-- `x · (1 / (1 + e^(−x)))` in the host's negate, exponential, add, divide and multiply is `silu x`. -/
theorem silu_host (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = EdgeBlock.silu x := by
  show x * Ideal.div (Ideal.ofBits .f32 0x3F800000#32) (Ideal.ofBits .f32 0x3F800000#32 + Ideal.exp (-x)) = x * Ideal.logistic x
  rw [one_bits]
  rfl

/-! ## The reference, stage by stage, at an edge whose batch index is the word of the table row `r` -/

section Stages
variable (x0 : FVec Ideal S262144x128 .f32) (x1 : FVec Ideal S262144x64 .f32) (x2 x3 : FVec Ideal S256x32 .f32)
  (x4 : IVec S262144 32) (x5 : FVec Ideal S256x256 .f32) (x6 : FVec Ideal S256 .f32) (x7 : FVec Ideal S256x256 .f32)
  (x8 : FVec Ideal S256 .f32) (x9 : FVec Ideal S256x128 .f32) (x10 : FVec Ideal S128 .f32)
  (e : Fin 262144) (r : Fin 256)

/-- The table `[globs | cndts]` at `(g, c)` is graph `g`'s context row at `c`. -/
theorem table_apply (g : Fin 256) (c : Fin 64) :
    val_main_v1 (F := Ideal) x2 x3 (ix2 g c)
      = EdgeBlock.tableRow (fun j => x2 (ix2 g j)) (fun j => x3 (ix2 g j)) c := by
  unfold val_main_v1 EdgeBlock.tableRow
  by_cases h : c.val < 32
  · rw [dif_pos h]
    exact cat_left (n₁ := 32) x2 x3 _ g c h
  · rw [dif_neg h]
    exact cat_right (n₁ := 32) x2 x3 _ g c (by omega) _

/-- The start index of edge `e`: a word that is not negative has nothing added, so it is the batch index itself. -/
theorem index_apply (hr : x4 (ix1 e) = BitVec.ofNat 32 r.val) :
    val_main_v7 (F := Ideal) x4 (ix2 e 0) = BitVec.ofNat 32 r.val := by
  have h7 : idx_main_v7 (ix2 e (0 : Fin 1)) = ix1 e :=
    funext fun a => Fin.ext (by match a with | ⟨0, _⟩ => rfl)
  rw [val_main_v7_apply, h7, val_main_v6_apply, val_main_v3_apply, hr, val_main_v2_apply, val_main_c_apply,
    slt_zero_of_lt r.val r.isLt, select_zero]

/-- The gathered context of edge `e` at `c`: row `r` of the table (the clamp does nothing to a word below 256). -/
theorem ctx_apply (hr : x4 (ix1 e) = BitVec.ofNat 32 r.val) (c : Fin 64) :
    val_main_v8 (F := Ideal) x2 x3 x4 (ix2 e c)
      = EdgeBlock.tableRow (fun j => x2 (ix2 r j)) (fun j => x3 (ix2 r j)) c := by
  unfold val_main_v8
  rw [gather_apply]
  have hrow : (⟨min (val_main_v7 (F := Ideal) x4 (ix2 e 0)).toInt.toNat 255, by omega⟩ : Fin 256) = r :=
    Fin.ext (by
      show min (val_main_v7 (F := Ideal) x4 (ix2 e 0)).toInt.toNat 255 = r.val
      rw [index_apply x4 e r hr, clamp_of_lt r.val r.isLt])
  exact (congrArg (fun g => val_main_v1 (F := Ideal) x2 x3 (ix2 g c)) hrow).trans (table_apply x2 x3 r c)

/-- The feature row of edge `e` at `k`: pooled messages, then its own features, then its graph's context. -/
theorem feat_apply (hr : x4 (ix1 e) = BitVec.ofNat 32 r.val) (k : Fin 256) :
    val_main_v9 (F := Ideal) x0 x1 x2 x3 x4 (ix2 e k)
      = EdgeBlock.feat (fun k => x0 (ix2 e k)) (fun k => x1 (ix2 e k))
          (EdgeBlock.tableRow (fun j => x2 (ix2 r j)) (fun j => x3 (ix2 r j))) k := by
  unfold val_main_v9 EdgeBlock.feat
  by_cases h : k.val < 128
  · rw [dif_pos h]
    refine (cat_left (n₁ := 192) _ _ _ e k (by omega)).trans ?_
    unfold val_main_v0
    exact cat_left (n₁ := 128) (n := 192) x0 x1 _ e (⟨k.val, by omega⟩ : Fin 192) h
  · rw [dif_neg h]
    by_cases h2 : k.val < 192
    · rw [dif_pos h2]
      refine (cat_left (n₁ := 192) _ _ _ e k h2).trans ?_
      unfold val_main_v0
      exact cat_right (n₁ := 128) (n := 192) x0 x1 _ e (⟨k.val, h2⟩ : Fin 192) (by show 128 ≤ k.val; omega) _
    · rw [dif_neg h2]
      refine (cat_right (n₁ := 192) _ _ _ e k (by omega) (by have := k.isLt; omega)).trans ?_
      exact ctx_apply x2 x3 x4 e r hr _

/-- The first layer before its SiLU, at `(e, n)`. -/
theorem pre1_apply (hr : x4 (ix1 e) = BitVec.ofNat 32 r.val) (n : Fin 256) :
    val_main_v13 (F := Ideal) x0 x1 x2 x3 x4 x5 x6 (ix2 e n)
      = EdgeBlock.dense (EdgeBlock.feat (fun k => x0 (ix2 e k)) (fun k => x1 (ix2 e k))
        (EdgeBlock.tableRow (fun j => x2 (ix2 r j)) (fun j => x3 (ix2 r j))))
          (fun k n => x5 (ix2 k n)) (fun n => x6 (ix1 n)) n := by
  rw [val_main_v13_apply, val_main_v10_apply, val_main_v12_apply, val_main_v11_apply]
  unfold EdgeBlock.dense
  show (∑ k : Fin 256, _) + _ = (∑ k : Fin 256, _) + _
  congr 1
  · refine Finset.sum_congr rfl fun k _ => ?_
    have hl : lidx_main_v10 (ix2 e n) k = ix2 e k :=
      funext fun a => Fin.ext (by match a with | ⟨0, _⟩ => rfl | ⟨1, _⟩ => rfl)
    have hrr : ridx_main_v10 (ix2 e n) k = ix2 k n :=
      funext fun a => Fin.ext (by match a with | ⟨0, _⟩ => rfl | ⟨1, _⟩ => rfl)
    rw [hl, hrr, feat_apply x0 x1 x2 x3 x4 e r hr k]
  · exact congrArg x6 (funext fun a => Fin.ext (by match a with | ⟨0, _⟩ => rfl))

/-- The first hidden layer at `(e, n)`. -/
theorem hid1_apply (hr : x4 (ix1 e) = BitVec.ofNat 32 r.val) (n : Fin 256) :
    val_main_v14 (F := Ideal) x0 x1 x2 x3 x4 x5 x6 (ix2 e n)
      = EdgeBlock.hidden1 (EdgeBlock.feat (fun k => x0 (ix2 e k)) (fun k => x1 (ix2 e k))
        (EdgeBlock.tableRow (fun j => x2 (ix2 r j)) (fun j => x3 (ix2 r j))))
          (fun k n => x5 (ix2 k n)) (fun n => x6 (ix1 n)) n := by
  rw [val_main_v14_apply, val_main_call0_v5_apply, val_main_call0_v4_apply, val_main_call0_cst_0_apply,
    val_main_call0_v3_apply, val_main_call0_v2_apply, val_main_call0_cst_apply, val_main_call0_v1_apply,
    val_main_call0_v0_apply, pre1_apply x0 x1 x2 x3 x4 x5 x6 e r hr n]
  exact silu_host _

/-- The second layer before its SiLU, at `(e, n)`. -/
theorem pre2_apply (hr : x4 (ix1 e) = BitVec.ofNat 32 r.val) (n : Fin 256) :
    val_main_v18 (F := Ideal) x0 x1 x2 x3 x4 x5 x6 x7 x8 (ix2 e n)
      = EdgeBlock.dense (EdgeBlock.hidden1 (EdgeBlock.feat (fun k => x0 (ix2 e k)) (fun k => x1 (ix2 e k))
        (EdgeBlock.tableRow (fun j => x2 (ix2 r j)) (fun j => x3 (ix2 r j))))
          (fun k n => x5 (ix2 k n)) (fun n => x6 (ix1 n))) (fun k n => x7 (ix2 k n)) (fun n => x8 (ix1 n)) n := by
  rw [val_main_v18_apply, val_main_v15_apply, val_main_v17_apply, val_main_v16_apply]
  unfold EdgeBlock.dense
  show (∑ k : Fin 256, _) + _ = (∑ k : Fin 256, _) + _
  congr 1
  · refine Finset.sum_congr rfl fun k _ => ?_
    have hl : lidx_main_v15 (ix2 e n) k = ix2 e k :=
      funext fun a => Fin.ext (by match a with | ⟨0, _⟩ => rfl | ⟨1, _⟩ => rfl)
    have hrr : ridx_main_v15 (ix2 e n) k = ix2 k n :=
      funext fun a => Fin.ext (by match a with | ⟨0, _⟩ => rfl | ⟨1, _⟩ => rfl)
    rw [hl, hrr, hid1_apply x0 x1 x2 x3 x4 x5 x6 e r hr k]
  · exact congrArg x8 (funext fun a => Fin.ext (by match a with | ⟨0, _⟩ => rfl))

/-- The second hidden layer at `(e, n)`. -/
theorem hid2_apply (hr : x4 (ix1 e) = BitVec.ofNat 32 r.val) (n : Fin 256) :
    val_main_v19 (F := Ideal) x0 x1 x2 x3 x4 x5 x6 x7 x8 (ix2 e n)
      = EdgeBlock.hidden2 (EdgeBlock.feat (fun k => x0 (ix2 e k)) (fun k => x1 (ix2 e k))
        (EdgeBlock.tableRow (fun j => x2 (ix2 r j)) (fun j => x3 (ix2 r j))))
          (fun k n => x5 (ix2 k n)) (fun n => x6 (ix1 n)) (fun k n => x7 (ix2 k n)) (fun n => x8 (ix1 n)) n := by
  rw [val_main_v19_apply, val_main_call1_v5_apply, val_main_call1_v4_apply, val_main_call1_cst_0_apply,
    val_main_call1_v3_apply, val_main_call1_v2_apply, val_main_call1_cst_apply, val_main_call1_v1_apply,
    val_main_call1_v0_apply, pre2_apply x0 x1 x2 x3 x4 x5 x6 x7 x8 e r hr n]
  exact silu_host _

/-- The network's output at `(e, j)`. -/
theorem out_apply (hr : x4 (ix1 e) = BitVec.ofNat 32 r.val) (j : Fin 128) :
    val_main_v23 (F := Ideal) x0 x1 x2 x3 x4 x5 x6 x7 x8 x9 x10 (ix2 e j)
      = EdgeBlock.netOut (EdgeBlock.feat (fun k => x0 (ix2 e k)) (fun k => x1 (ix2 e k))
        (EdgeBlock.tableRow (fun j => x2 (ix2 r j)) (fun j => x3 (ix2 r j))))
          (fun k n => x5 (ix2 k n)) (fun n => x6 (ix1 n)) (fun k n => x7 (ix2 k n)) (fun n => x8 (ix1 n)) (fun k j => x9 (ix2 k j)) (fun j => x10 (ix1 j)) j := by
  rw [val_main_v23_apply, val_main_v20_apply, val_main_v22_apply, val_main_v21_apply]
  unfold EdgeBlock.netOut EdgeBlock.dense
  show (∑ k : Fin 256, _) + _ = (∑ k : Fin 256, _) + _
  congr 1
  · refine Finset.sum_congr rfl fun k _ => ?_
    have hl : lidx_main_v20 (ix2 e j) k = ix2 e k :=
      funext fun a => Fin.ext (by match a with | ⟨0, _⟩ => rfl | ⟨1, _⟩ => rfl)
    have hrr : ridx_main_v20 (ix2 e j) k = ix2 k j :=
      funext fun a => Fin.ext (by match a with | ⟨0, _⟩ => rfl | ⟨1, _⟩ => rfl)
    rw [hl, hrr, hid2_apply x0 x1 x2 x3 x4 x5 x6 x7 x8 e r hr k]
  · exact congrArg x10 (funext fun a => Fin.ext (by match a with | ⟨0, _⟩ => rfl))

end Stages

/-- THE REFERENCE'S RESULT AT `(e, q)`, for an edge whose batch index is the word of the table row `r`. -/
theorem ref_apply (x0 : FVec Ideal S262144x128 .f32) (x1 : FVec Ideal S262144x64 .f32) (x2 x3 : FVec Ideal S256x32 .f32)
    (x4 : IVec S262144 32) (x5 : FVec Ideal S256x256 .f32) (x6 : FVec Ideal S256 .f32) (x7 : FVec Ideal S256x256 .f32)
    (x8 : FVec Ideal S256 .f32) (x9 : FVec Ideal S256x128 .f32) (x10 : FVec Ideal S128 .f32)
    (e : Fin 262144) (q : Fin 192) (r : Fin 256) (hr : x4 (ix1 e) = BitVec.ofNat 32 r.val) :
    val_main_v24 (F := Ideal) x0 x1 x2 x3 x4 x5 x6 x7 x8 x9 x10 (ix2 e q)
      = EdgeBlock.outRow
          (EdgeBlock.feat (fun k => x0 (ix2 e k)) (fun k => x1 (ix2 e k))
            (EdgeBlock.tableRow (fun j => x2 (ix2 r j)) (fun j => x3 (ix2 r j))))
          (fun k n => x5 (ix2 k n)) (fun n => x6 (ix1 n)) (fun k n => x7 (ix2 k n)) (fun n => x8 (ix1 n))
          (fun k j => x9 (ix2 k j)) (fun j => x10 (ix1 j)) (fun k => x1 (ix2 e k)) q := by
  unfold val_main_v24 EdgeBlock.outRow
  by_cases h : q.val < 128
  · -- left of the seam: the network's output
    rw [dif_pos h]
    refine (cat_left (n₁ := 128) _ _ _ e q h).trans ?_
    exact out_apply x0 x1 x2 x3 x4 x5 x6 x7 x8 x9 x10 e r hr ⟨q.val, h⟩
  · -- right of it: the edge's own features
    rw [dif_neg h]
    exact cat_right (n₁ := 128) _ x1 _ e q (by omega) _

end Cert.ReferenceIdeal.RefValue

end
-- ==== Proof.lean ====
/-
  The certificate of the edge update: the kernel and its reference compute one function.

  Both programs take, per edge, the feature row [pooled messages | edge features | context of the edge's graph], run it
  through a dense network with two SiLU hidden layers, and return [network output | edge features]. They differ in how
  the context row is found — the kernel multiplies a one-hot matrix of the batch indices, clipped into [0, 255], with the
  context table; the reference gathers the row, after adding 256 to a negative index — and in the float formats of the
  matrix products' operands, which on the extended reals are all the same numbers. Under the precondition every batch
  index is one of 0 … 255, where clipping, adding 256 to negatives and the gather's clamp all do nothing, and the one-hot
  product and the gather pick the same row. Both results are then `EdgeBlock.G` of the arguments, entry by entry: the
  kernel's block by block over its 64 grid points, the reference's operation by operation.

  The three frames are the programs' runs with the results dropped; the kernel's idealization rewrote nothing, so there
  is nothing to preserve.
-/
import proofs.«418049_j5076651344271_2_alg».proof.Defs
import proofs.«418049_j5076651344271_2_alg».proof.Proof.Gen.Kernel
import proofs.«418049_j5076651344271_2_alg».proof.Proof.Gen.Kernel.Skeleton
import proofs.«418049_j5076651344271_2_alg».proof.Proof.Gen.Kernel.Launch
import proofs.«418049_j5076651344271_2_alg».proof.Proof.Gen.Kernel.Points
import proofs.«418049_j5076651344271_2_alg».proof.Proof.Gen.Kernel.Frame
import proofs.«418049_j5076651344271_2_alg».proof.Proof.Gen.KernelIdeal
import proofs.«418049_j5076651344271_2_alg».proof.Proof.Gen.KernelIdeal.Skeleton
import proofs.«418049_j5076651344271_2_alg».proof.Proof.Gen.KernelIdeal.Launch
import proofs.«418049_j5076651344271_2_alg».proof.Proof.Gen.KernelIdeal.Points
import proofs.«418049_j5076651344271_2_alg».proof.Proof.Gen.KernelIdeal.Frame
import proofs.«418049_j5076651344271_2_alg».proof.Proof.Gen.ReferenceIdeal
import proofs.«418049_j5076651344271_2_alg».proof.Proof.Gen.Pre_finite_inputs
import proofs.«418049_j5076651344271_2_alg».proof.Proof.Gen.KernelIdeal.Value
import proofs.«418049_j5076651344271_2_alg».proof.Proof.RefRun
import proofs.«418049_j5076651344271_2_alg».proof.Proof.RefRead
import proofs.«418049_j5076651344271_2_alg».proof.Proof.Spec
import proofs.«418049_j5076651344271_2_alg».proof.Proof.PreDecode
import proofs.«418049_j5076651344271_2_alg».proof.Proof.KernelValue
import proofs.«418049_j5076651344271_2_alg».proof.Proof.RefValue
import Idealize.ShloMosaic.Adequacy
import Idealize.ShloMosaic.Init

noncomputable section

namespace Cert.Proof

open Idealize.ShloMosaic Idealize.ShloMosaic.ValueIdx Idealize.SL.Sem

/-- The reference's whole result is the specification, when every batch index is the word of a table row: entry
    `(e, q)` is edge `e`'s result row at `q` on both sides. -/
theorem ref_eq_G (x0 : FVec Ideal Cert.ReferenceIdeal.S262144x128 .f32) (x1 : FVec Ideal Cert.ReferenceIdeal.S262144x64 .f32)
    (x2 x3 : FVec Ideal Cert.ReferenceIdeal.S256x32 .f32) (x4 : IVec Cert.ReferenceIdeal.S262144 32)
    (x5 : FVec Ideal Cert.ReferenceIdeal.S256x256 .f32) (x6 : FVec Ideal Cert.ReferenceIdeal.S256 .f32)
    (x7 : FVec Ideal Cert.ReferenceIdeal.S256x256 .f32) (x8 : FVec Ideal Cert.ReferenceIdeal.S256 .f32)
    (x9 : FVec Ideal Cert.ReferenceIdeal.S256x128 .f32) (x10 : FVec Ideal Cert.ReferenceIdeal.S128 .f32)
    (hb : ∀ e : Fin 262144, ∃ r : Fin 256, x4 (ix1 e) = BitVec.ofNat 32 r.val) :
    Cert.ReferenceIdeal.Read.val_main_v24 (F := Ideal) x0 x1 x2 x3 x4 x5 x6 x7 x8 x9 x10
      = Cert.EdgeBlock.G x0 x1 x2 x3 x4 x5 x6 x7 x8 x9 x10 := by
  refine funext fun (i : Cert.ReferenceIdeal.S262144x192.Idx) => ?_
  obtain ⟨e, q, rfl⟩ : ∃ (e : Fin 262144) (q : Fin 192), i = ix2 e q := ⟨i 0, i 1, eq_ix2 i⟩
  obtain ⟨r, hr⟩ := hb e
  rw [Cert.ReferenceIdeal.RefValue.ref_apply x0 x1 x2 x3 x4 x5 x6 x7 x8 x9 x10 e q r hr]
  show _ = Cert.EdgeBlock.outRow _ _ _ _ _ _ _ _ q
  rw [hr, Cert.EdgeBlock.rowOf_ofNat]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with `EdgeBlock.G` of those arguments. -/
theorem algebraic : Cert.algebraic_KernelIdeal_ReferenceIdeal := by
  intro m ρ m' ρ' hpre hagree
  have hb : ∀ c : Dev Cert.KernelIdeal.nD, Cert.KernelIdeal.ArrayValue.InRange m c := fun c e =>
    Cert.Proof.PreDecode.batch_in_range _ _ _ _ _ _ _ _ _ _ _ (hpre c) e
  refine ⟨fun c => Cert.KernelIdeal.ArrayValue.result m c, Cert.KernelIdeal.ArrayValue.run m ρ hb, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq]
  obtain ⟨a0, a1, a2, a3, a4, a5, a6, a7, a8, a9, a10⟩ := hagree c
  rw [a0, a1, a2, a3, a4, a5, a6, a7, a8, a9, a10]
  exact ref_eq_G _ _ _ _ _ _ _ _ _ _ _ (hb c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
